-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S262144 : Shape := ⟨1, ![262144]⟩
abbrev S131072x1x256 : Shape := ⟨3, ![131072, 1, 256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S131072x1x256 : S_.BroadcastsInDim S131072x1x256 (![] : Fin 0 → Fin S131072x1x256.rank)
  reducesTo_S131072x1x256_S_d0_1_2 : S131072x1x256.ReducesTo [0, 1, 2] S_

variable [Facts]

def fn {F : FTy → Type} [FloatOps F] (main_arg0 : FVec F S262144x256 .f32) (main_arg1 : IVec S262144 32) (main_arg2 : FVec F S131072x1x256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S131072x1x256 .f32 := Host.absf main_arg2
  let main_cst_0 : FVec F S_ .f32 := constant S_ .f32 0x7F800000#32
  let main_v5 : FVec F S131072x1x256 .f32 := broadcastInDim S131072x1x256 ![] bcast_S_S131072x1x256 main_cst_0
  let main_v6 : IVec S131072x1x256 1 := cmpf .olt main_v4 main_v5
  let main_c_1 : IVec S_ 1 := constantI S_ 1 1#1
  let main_v7 : IVec S_ 1 := (fun x v => Host.reduce IntOp.andi x v reducesTo_S131072x1x256_S_d0_1_2 h_S_) main_v6 main_c_1
  let main_v8 : IVec S_ 1 := andi main_v3 main_v7
  main_v8
-- ==== Kernel.lean ====
abbrev S262144x256 : Shape := ⟨2, ![262144, 256]⟩
abbrev S262144 : Shape := ⟨1, ![262144]⟩
abbrev S131072x1x256 : Shape := ⟨3, ![131072, 1, 256]⟩
abbrev S1x262144 : Shape := ⟨2, ![1, 262144]⟩
abbrev S2x64x256 : Shape := ⟨3, ![2, 64, 256]⟩
abbrev S2x64x1 : Shape := ⟨3, ![2, 64, 1]⟩
abbrev S8192x256 : Shape := ⟨2, ![8192, 256]⟩
abbrev S1x8192 : Shape := ⟨2, ![1, 8192]⟩
abbrev S1x64x256 : Shape := ⟨3, ![1, 64, 256]⟩
abbrev S1x64x1 : Shape := ⟨3, ![1, 64, 1]⟩
abbrev S64x256 : Shape := ⟨2, ![64, 256]⟩
abbrev S64x1 : Shape := ⟨2, ![64, 1]⟩
abbrev S64x8192 : Shape := ⟨2, ![64, 8192]⟩
abbrev S64 : Shape := ⟨1, ![64]⟩
abbrev S_ : Shape := ⟨0, ![]⟩
abbrev S1x64 : Shape := ⟨2, ![1, 64]⟩
abbrev S131072x256 : Shape := ⟨2, ![131072, 256]⟩
abbrev S131072x64 : Shape := ⟨2, ![131072, 64]⟩
abbrev S8192x64 : Shape := ⟨2, ![8192, 64]⟩
abbrev S8192 : Shape := ⟨1, ![8192]⟩
abbrev S8192x1 : Shape := ⟨2, ![8192, 1]⟩

abbrev nBuf : Space → Nat
  | .hbm => 25
  | .vmem => 14
  | .smem => 0
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S131072x1x256, .f32⟩
  | .hbm, ⟨3, _⟩ => ⟨S1x262144, .i32⟩
  | .hbm, ⟨4, _⟩ => ⟨S2x64x256, .f32⟩
  | .hbm, ⟨5, _⟩ => ⟨S2x64x1, .f32⟩
  | .hbm, ⟨6, _⟩ => ⟨S_, .f32⟩
  | .hbm, ⟨7, _⟩ => ⟨S64x256, .f32⟩
  | .hbm, ⟨8, _⟩ => ⟨S_, .f32⟩
  | .hbm, ⟨9, _⟩ => ⟨S64x1, .f32⟩
  | .hbm, ⟨10, _⟩ => ⟨S_, .f32⟩
  | .hbm, ⟨11, _⟩ => ⟨S64x1, .f32⟩
  | .hbm, ⟨12, _⟩ => ⟨S64x1, .f32⟩
  | .hbm, ⟨13, _⟩ => ⟨S64x256, .f32⟩
  | .hbm, ⟨14, _⟩ => ⟨S64x256, .f32⟩
  | .hbm, ⟨15, _⟩ => ⟨S64x256, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S1x64, .f32⟩
  | .hbm, ⟨23, _⟩ => ⟨S131072x256, .f32⟩
  | .hbm, ⟨24, _⟩ => ⟨S131072x64, .f32⟩
  | .local _ .vmem, ⟨0, _⟩ => ⟨S8192x256, .f32⟩
  | .local _ .vmem, ⟨1, _⟩ => ⟨S8192x256, .f32⟩
  | .local _ .vmem, ⟨2, _⟩ => ⟨S1x8192, .i32⟩
  | .local _ .vmem, ⟨3, _⟩ => ⟨S1x8192, .i32⟩
  | .local _ .vmem, ⟨4, _⟩ => ⟨S1x64x256, .f32⟩
  | .local _ .vmem, ⟨5, _⟩ => ⟨S1x64x256, .f32⟩
  | .local _ .vmem, ⟨6, _⟩ => ⟨S1x64x1, .f32⟩
  | .local _ .vmem, ⟨7, _⟩ => ⟨S1x64x1, .f32⟩
  | .local _ .vmem, ⟨8, _⟩ => ⟨S8192x256, .f32⟩
  | .local _ .vmem, ⟨9, _⟩ => ⟨S8192x256, .f32⟩
  | .local _ .vmem, ⟨10, _⟩ => ⟨S64x256, .f32⟩
  | .local _ .vmem, ⟨11, _⟩ => ⟨S1x64, .f32⟩
  | .local _ .vmem, ⟨12, _⟩ => ⟨S8192x64, .f32⟩
  | .local _ .vmem, ⟨13, _⟩ => ⟨S8192x64, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_v0 : Ref sig .tc := ⟨.hbm, 15, rfl⟩
abbrev main_call0_cst : Ref sig .tc := ⟨.hbm, 16, rfl⟩
abbrev main_call0_v1 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8192x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S262144_S1x262144 : S262144.ShapeCasts S1x262144
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  shapeCasts_S64x256_S1x64x256 : S64x256.ShapeCasts S1x64x256
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  iota_S64x8192_d0_w32 : S64x8192.Iotas .tc 32 [0]
  broadcasts_S1x8192_S64x8192 : S1x8192.Broadcasts S64x8192
  natLt_1_32 : 1 < 32
  inb_S8192x256_S8192x256_0_0 : ∀ a, (![0, 0] : Fin 2 → Nat) a + S8192x256.size a ≤ S8192x256.size a
  h_S8192x256 : 0 < S8192x256.numel
  bitsLt_bf16_f32 : FTy.bits .bf16 < FTy.bits .f32
  reduces_S64x8192_S64 : S64x8192.Reduces [1] S64
  shapeCasts_S64_S64x1 : S64.ShapeCasts S64x1
  reducesTo_S2x64x256_S64x256_d0 : S2x64x256.ReducesTo [0] S64x256
  h_S_ : 0 < S_.numel
  reducesTo_S2x64x1_S64x1_d0 : S2x64x1.ReducesTo [0] S64x1
  bcast_S_S64x1 : S_.BroadcastsInDim S64x1 (![] : Fin 0 → Fin S64x1.rank)
  bcast_S64x1_S64x256_0_1 : S64x1.BroadcastsInDim S64x256 (![0, 1] : Fin 2 → Fin S64x256.rank)
  reducesTo_S64x256_S64_d1 : S64x256.ReducesTo [1] S64
  bcast_S_S64 : S_.BroadcastsInDim S64 (![] : Fin 0 → Fin S64.rank)
  shapeCasts_S64_S1x64 : S64.ShapeCasts S1x64
  shapeCasts_S131072x1x256_S131072x256 : S131072x1x256.ShapeCasts S131072x256
  shapeCasts_S8192x256_S8192x256 : S8192x256.ShapeCasts S8192x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  reduces_S8192x256_S8192 : S8192x256.Reduces [1] S8192
  shapeCasts_S8192_S8192x1 : S8192.ShapeCasts S8192x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S8192x1_S8192x64 : S8192x1.Broadcasts S8192x64
  broadcasts_S1x64_S8192x64 : S1x64.Broadcasts S8192x64
  reduces_S8192x64_S8192 : S8192x64.Reduces [1] S8192
  inb_S8192x64_S8192x64_0_0 : ∀ a, (![0, 0] : Fin 2 → Nat) a + S8192x64.size a ≤ S8192x64.size a
  h_S8192x64 : 0 < S8192x64.numel
  dot_S64x8192_S8192x256_S64x256_1_0_0_1_n_n_wf : DotDims.WF S64x8192 S8192x256 S64x256 [1] [0] [0] [1] [] []
  dot_S8192x256_S64x256_S8192x64_1_1_0_0_n_n_wf : DotDims.WF S8192x256 S64x256 S8192x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S262144x256.size a
  hwx0_0 : ∀ i : grid0.Coords, EltTy.bits .f32 = 32 ∨ (Rect.block (s := S262144x256) S8192x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x262144.size a
  hwx0_1 : ∀ i : grid0.Coords, EltTy.bits .i32 = 32 ∨ (Rect.block (s := S1x262144) S1x8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x256.size a ≤ S2x64x256.size a
  hwx0_2 : ∀ i : grid0.Coords, EltTy.bits .f32 = 32 ∨ (Rect.block (s := S2x64x256) S1x64x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x1.size a ≤ S2x64x1.size a
  hwx0_3 : ∀ i : grid0.Coords, EltTy.bits .f32 = 32 ∨ (Rect.block (s := S2x64x1) S1x64x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x256.size a ≤ S131072x256.size a
  hwx1_0 : ∀ i : grid1.Coords, EltTy.bits .f32 = 32 ∨ (Rect.block (s := S131072x256) S8192x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x256.size a ≤ S64x256.size a
  hwx1_1 : ∀ i : grid1.Coords, EltTy.bits .f32 = 32 ∨ (Rect.block (s := S64x256) S64x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8192x64.size a ≤ S131072x64.size a
  hwx1_3 : ∀ i : grid1.Coords, EltTy.bits .f32 = 32 ∨ (Rect.block (s := S131072x64) S8192x64.size (cc1_transform_3 i) (hinb1_3 i)).WholeWords (EltTy.packing .f32)

variable [Facts₀]

def dot_S64x8192_S8192x256_S64x256_1_0_0_1_n_n : DotDims S64x8192 S8192x256 S64x256 where
  lhsContracting := [1]
  rhsContracting := [0]
  lhsNonContracting := [0]
  rhsNonContracting := [1]
  lhsBatch := []
  rhsBatch := []
  wf := dot_S64x8192_S8192x256_S64x256_1_0_0_1_n_n_wf
def dot_S8192x256_S64x256_S8192x64_1_1_0_0_n_n : DotDims S8192x256 S64x256 S8192x64 where
  lhsContracting := [1]
  rhsContracting := [1]
  lhsNonContracting := [0]
  rhsNonContracting := [0]
  lhsBatch := []
  rhsBatch := []
  wf := dot_S8192x256_S64x256_S8192x64_1_1_0_0_n_n_wf

abbrev win0_0 : Pipeline.Window sig grid0 :=
  Pipeline.Window.ofSpec (Memref.whole main_arg0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x64x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x64x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v12) S8192x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S64x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S8192x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S262144x256 : Shape := ⟨2, ![262144, 256]⟩
abbrev S262144 : Shape := ⟨1, ![262144]⟩
abbrev S131072x1x256 : Shape := ⟨3, ![131072, 1, 256]⟩
abbrev S_ : Shape := ⟨0, ![]⟩
abbrev S64x256 : Shape := ⟨2, ![64, 256]⟩
abbrev S262144x1 : Shape := ⟨2, ![262144, 1]⟩
abbrev S64 : Shape := ⟨1, ![64]⟩
abbrev S64x1 : Shape := ⟨2, ![64, 1]⟩
abbrev S131072x256 : Shape := ⟨2, ![131072, 256]⟩
abbrev S131072 : Shape := ⟨1, ![131072]⟩
abbrev S131072x64 : Shape := ⟨2, ![131072, 64]⟩
abbrev S131072x1 : Shape := ⟨2, ![131072, 1]⟩
abbrev S1x64 : Shape := ⟨2, ![1, 64]⟩

abbrev nBuf : Space → Nat
  | .hbm => 56
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S131072x1x256, .f32⟩
  | .hbm, ⟨3, _⟩ => ⟨S_, .f32⟩
  | .hbm, ⟨4, _⟩ => ⟨S64x256, .f32⟩
  | .hbm, ⟨5, _⟩ => ⟨S262144x1, .i32⟩
  | .hbm, ⟨6, _⟩ => ⟨S64x256, .f32⟩
  | .hbm, ⟨7, _⟩ => ⟨S_, .f32⟩
  | .hbm, ⟨8, _⟩ => ⟨S262144, .f32⟩
  | .hbm, ⟨9, _⟩ => ⟨S_, .f32⟩
  | .hbm, ⟨10, _⟩ => ⟨S64, .f32⟩
  | .hbm, ⟨11, _⟩ => ⟨S262144x1, .i32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64x1, .f32⟩
  | .hbm, ⟨17, _⟩ => ⟨S64x256, .f32⟩
  | .hbm, ⟨18, _⟩ => ⟨S64x256, .f32⟩
  | .hbm, ⟨19, _⟩ => ⟨S131072x256, .f32⟩
  | .hbm, ⟨20, _⟩ => ⟨S131072x256, .f32⟩
  | .hbm, ⟨21, _⟩ => ⟨S_, .f32⟩
  | .hbm, ⟨22, _⟩ => ⟨S131072, .f32⟩
  | .hbm, ⟨23, _⟩ => ⟨S131072, .f32⟩
  | .hbm, ⟨24, _⟩ => ⟨S_, .f32⟩
  | .hbm, ⟨25, _⟩ => ⟨S131072, .f32⟩
  | .hbm, ⟨26, _⟩ => ⟨S131072, .f32⟩
  | .hbm, ⟨27, _⟩ => ⟨S64x256, .f32⟩
  | .hbm, ⟨28, _⟩ => ⟨S_, .f32⟩
  | .hbm, ⟨29, _⟩ => ⟨S64, .f32⟩
  | .hbm, ⟨30, _⟩ => ⟨S64, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S131072x64, .f32⟩
  | .hbm, ⟨35, _⟩ => ⟨S131072x1, .f32⟩
  | .hbm, ⟨36, _⟩ => ⟨S1x64, .f32⟩
  | .hbm, ⟨37, _⟩ => ⟨S131072x64, .f32⟩
  | .hbm, ⟨38, _⟩ => ⟨S131072x64, .f32⟩
  | .hbm, ⟨39, _⟩ => ⟨S131072x64, .f32⟩
  | .hbm, ⟨40, _⟩ => ⟨S131072x64, .f32⟩
  | .hbm, ⟨41, _⟩ => ⟨S_, .f32⟩
  | .hbm, ⟨42, _⟩ => ⟨S131072, .f32⟩
  | .hbm, ⟨43, _⟩ => ⟨S_, .f32⟩
  | .hbm, ⟨44, _⟩ => ⟨S131072, .f32⟩
  | .hbm, ⟨45, _⟩ => ⟨S131072, .f32⟩
  | .hbm, ⟨46, _⟩ => ⟨S131072x1, .f32⟩
  | .hbm, ⟨47, _⟩ => ⟨S131072x64, .f32⟩
  | .hbm, ⟨48, _⟩ => ⟨S131072x64, .f32⟩
  | .hbm, ⟨49, _⟩ => ⟨S131072x64, .f32⟩
  | .hbm, ⟨50, _⟩ => ⟨S_, .f32⟩
  | .hbm, ⟨51, _⟩ => ⟨S131072, .f32⟩
  | .hbm, ⟨52, _⟩ => ⟨S131072x1, .f32⟩
  | .hbm, ⟨53, _⟩ => ⟨S131072x1, .f32⟩
  | .hbm, ⟨54, _⟩ => ⟨S131072x64, .f32⟩
  | .hbm, ⟨55, _⟩ => ⟨S131072x64, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_v0 : Ref sig .tc := ⟨.hbm, 20, rfl⟩
abbrev main_call0_cst : Ref sig .tc := ⟨.hbm, 21, rfl⟩
abbrev main_call0_v1 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_call1_v0 : Ref sig .tc := ⟨.hbm, 27, rfl⟩
abbrev main_call1_cst : Ref sig .tc := ⟨.hbm, 28, rfl⟩
abbrev main_call1_v1 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call2_cst : Ref sig .tc := ⟨.hbm, 41, rfl⟩
abbrev main_call2_v0 : Ref sig .tc := ⟨.hbm, 42, rfl⟩
abbrev main_call2_cst_0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_call2_v6 : Ref sig .tc := ⟨.hbm, 49, rfl⟩
abbrev main_call2_cst_1 : Ref sig .tc := ⟨.hbm, 50, rfl⟩
abbrev main_call2_v7 : Ref sig .tc := ⟨.hbm, 51, rfl⟩
abbrev main_call2_v8 : Ref sig .tc := ⟨.hbm, 52, rfl⟩
abbrev main_call2_v9 : Ref sig .tc := ⟨.hbm, 53, rfl⟩
abbrev main_call2_v10 : Ref sig .tc := ⟨.hbm, 54, rfl⟩
abbrev main_v26 : Ref sig .tc := ⟨.hbm, 55, rfl⟩

abbrev nD : Nat := 1
abbrev τ : Topo := Topo.v7x

variable {F : FTy → Type} [FloatOps F]

class Facts₀ : Prop where
  bcast_S_S64x256 : S_.BroadcastsInDim S64x256 (![] : Fin 0 → Fin S64x256.rank)
  bcast_S262144_S262144x1_0 : S262144.BroadcastsInDim S262144x1 (![0] : Fin 1 → Fin S262144x1.rank)
  bcast_S_S262144 : S_.BroadcastsInDim S262144 (![] : Fin 0 → Fin S262144.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  shapeCasts_S131072x1x256_S131072x256 : S131072x1x256.ShapeCasts S131072x256
  reducesTo_S131072x256_S131072_d1 : S131072x256.ReducesTo [1] S131072
  h_S_ : 0 < S_.numel
  bcast_S_S131072 : S_.BroadcastsInDim S131072 (![] : Fin 0 → Fin S131072.rank)
  reducesTo_S64x256_S64_d1 : S64x256.ReducesTo [1] S64
  bcast_S131072_S131072x1_0 : S131072.BroadcastsInDim S131072x1 (![0] : Fin 1 → Fin S131072x1.rank)
  bcast_S64_S1x64_1 : S64.BroadcastsInDim S1x64 (![1] : Fin 1 → Fin S1x64.rank)
  bcast_S131072x1_S131072x64_0_1 : S131072x1.BroadcastsInDim S131072x64 (![0, 1] : Fin 2 → Fin S131072x64.rank)
  bcast_S1x64_S131072x64_0_1 : S1x64.BroadcastsInDim S131072x64 (![0, 1] : Fin 2 → Fin S131072x64.rank)
  reducesTo_S131072x64_S131072_d1 : S131072x64.ReducesTo [1] S131072
  scatter_S64x256_S262144x1_S262144x256_1_0_0_1_wf : ScatterDims.WF S64x256 S262144x1 S262144x256 [1] [0] [0] 1
  scatter_S64_S262144x1_S262144_n_0_0_1_wf : ScatterDims.WF S64 S262144x1 S262144 [] [0] [0] 1
  dot_S131072x256_S64x256_S131072x64_1_1_0_0_n_n_wf : DotDims.WF S131072x256 S64x256 S131072x64 [1] [1] [0] [0] [] []

variable [Facts₀]

def scatter_S64x256_S262144x1_S262144x256_1_0_0_1 : ScatterDims S64x256 S262144x1 S262144x256 where
  updateWindowDims := [1]
  insertedWindowDims := [0]
  scatterDimsToOperandDims := [0]
  indexVectorDim := 1
  wf := scatter_S64x256_S262144x1_S262144x256_1_0_0_1_wf
def scatter_S64_S262144x1_S262144_n_0_0_1 : ScatterDims S64 S262144x1 S262144 where
  updateWindowDims := []
  insertedWindowDims := [0]
  scatterDimsToOperandDims := [0]
  indexVectorDim := 1
  wf := scatter_S64_S262144x1_S262144_n_0_0_1_wf
def dot_S131072x256_S64x256_S131072x64_1_1_0_0_n_n : DotDims S131072x256 S64x256 S131072x64 where
  lhsContracting := [1]
  rhsContracting := [1]
  lhsNonContracting := [0]
  rhsNonContracting := [0]
  lhsBatch := []
  rhsBatch := []
  wf := dot_S131072x256_S64x256_S131072x64_1_1_0_0_n_n_wf

class Facts : Prop extends Facts₀ where

variable [Facts]
-- ==== Proof.Spec.lean ====
/-
  What both programs compute, as plain functions over the extended reals.

  Support rows are summed per class (a row whose label is class `k` is added to class `k`; a label that is no
  class is added nowhere), each class sum is divided by the larger of its member count and one, and that gives the
  class prototypes. A query row is scored against every prototype by the cosine similarity with both Euclidean norms
  clamped from below, and the row of scores goes through a log-softmax: the row's maximum is subtracted, and then the
  logarithm of the sum of the exponentials of the shifted scores.
-/
import Idealize.ShloMosaic.PureOps.Ideal.Laws
import Idealize.ShloMosaic.Lib.ValueIdx

noncomputable section

open scoped BigOperators

namespace Cert.Spec

open Idealize.ShloMosaic

/-- The lower clamp of both norms (the single-precision value nearest to 1e-8). -/
abbrev eps : EReal := Ideal.ofBits .f32 0x322BCC77#32

/-- The value a row maximum starts from (minus infinity). -/
abbrev negInf : EReal := Ideal.ofBits .f32 0xFF800000#32

/-- The Euclidean norm of a vector, clamped from below by `eps`. -/
def cnorm {n : Nat} (v : Fin n → EReal) : EReal := max (Ideal.sqrt (∑ d, v d * v d)) eps

/-- The cosine similarity of a query row `qr` with prototype `c`, over clamped norms; `pn c` is the prototype's. -/
def sims (qr : Fin 256 → EReal) (P : Fin 64 → Fin 256 → EReal) (pn : Fin 64 → EReal) (c : Fin 64) : EReal :=
  Ideal.div (∑ d, qr d * P c d) (cnorm qr * pn c)

/-- The maximum of a row of 64 scores, started from minus infinity. -/
def rowMax (s : Fin 64 → EReal) : EReal := (Finset.univ : Finset (Fin 64)).fold max negInf s

/-- A row of scores less its maximum. -/
def shifted (s : Fin 64 → EReal) (c : Fin 64) : EReal := s c - rowMax s

/-- The log-softmax of a row of 64 scores. -/
def logSoftmax (s : Fin 64 → EReal) (c : Fin 64) : EReal :=
  shifted s c - Ideal.log (∑ c', Ideal.exp (shifted s c'))

/-- One output row: the log-softmax of the query row's similarities. -/
def rowOut (qr : Fin 256 → EReal) (P : Fin 64 → Fin 256 → EReal) (pn : Fin 64 → EReal) (c : Fin 64) : EReal :=
  logSoftmax (sims qr P pn) c

/-- The sum of the support rows of class `k`, column `d`. -/
def classSum (x : Fin 262144 → Fin 256 → EReal) (lab : Fin 262144 → BitVec 32) (k : Fin 64) (d : Fin 256) : EReal :=
  ∑ s, if (lab s).toInt = (k.val : ℤ) then x s d else 0

/-- The number of support rows of class `k`. -/
def classCount (lab : Fin 262144 → BitVec 32) (k : Fin 64) : EReal :=
  ∑ s, if (lab s).toInt = (k.val : ℤ) then (1 : EReal) else 0

/-- The prototype of class `k`: its sum over the larger of its count and one. -/
def proto (x : Fin 262144 → Fin 256 → EReal) (lab : Fin 262144 → BitVec 32) (k : Fin 64) (d : Fin 256) : EReal :=
  Ideal.div (classSum x lab k d) (max (classCount lab k) 1)

/-- The whole result: row `n` of the queries against the prototypes of the support set. -/
def result (x : Fin 262144 → Fin 256 → EReal) (lab : Fin 262144 → BitVec 32) (q : Fin 131072 → Fin 256 → EReal)
    (n : Fin 131072) (c : Fin 64) : EReal :=
  rowOut (q n) (proto x lab) (fun c => cnorm (proto x lab c)) c

end Cert.Spec

end
-- ==== Proof.Arrays.lean ====
/-
  The arrays the kernel's two launches leave, as functions of the arrays they read, over literal shapes.

  The first launch walks the support set in 32 tiles of 8192 rows, 16 per core: tile (core, i) holds the rows
  8192 · (16 · core + i) + j. Core `core` ends with its own partial class sums and member counts over its 16 tiles.
  The second launch writes, for query row `n`, the log-softmax of that row's cosine similarities with the prototypes.
-/
import Idealize.ShloMosaic.PureOps.Ideal.Laws
import Idealize.ShloMosaic.Lib.ValueIdx
import proofs.«421448_j35373350650479_2_alg».proof.Proof.Spec

noncomputable section

open scoped BigOperators

namespace Cert.Arrays

open Idealize.ShloMosaic Idealize.ShloMosaic.ValueIdx

/-- The support row that sits at offset `j` of tile `i` of core `core`. -/
def rowOf (core : Fin 2) (i : Fin 16) (j : Fin 8192) : Fin 262144 :=
  ⟨8192 * (16 * core.val + i.val) + j.val, by have := core.isLt; have := i.isLt; have := j.isLt; omega⟩

theorem rowOf_val (core : Fin 2) (i : Fin 16) (j : Fin 8192) :
    (rowOf core i j).val = 8192 * (16 * core.val + i.val) + j.val := rfl

/-- Core `core`'s partial sum of the support rows of class `k`, column `d`, over the core's 16 tiles. The labels
    are one row of 262144 words. -/
def partSum (x : (⟨2, ![262144, 256]⟩ : Shape).Idx → EReal) (lab : (⟨2, ![1, 262144]⟩ : Shape).Idx → BitVec 32)
    (core : Fin 2) (k : Fin 64) (d : Fin 256) : EReal :=
  ∑ i : Fin 16, ∑ j : Fin 8192,
    if (lab (ix2 (0 : Fin 1) (rowOf core i j))).toInt = (k.val : ℤ) then x (ix2 (rowOf core i j) d) else 0

/-- Core `core`'s partial count of the support rows of class `k`. -/
def partCount (lab : (⟨2, ![1, 262144]⟩ : Shape).Idx → BitVec 32) (core : Fin 2) (k : Fin 64) : EReal :=
  ∑ i : Fin 16, ∑ j : Fin 8192,
    if (lab (ix2 (0 : Fin 1) (rowOf core i j))).toInt = (k.val : ℤ) then (1 : EReal) else 0

/-- The first launch's first result: the two cores' partial class sums. -/
def partSums (x : (⟨2, ![262144, 256]⟩ : Shape).Idx → EReal) (lab : (⟨2, ![1, 262144]⟩ : Shape).Idx → BitVec 32) :
    (⟨3, ![2, 64, 256]⟩ : Shape).Idx → EReal :=
  fun a => partSum x lab (a 0) (a 1) (a 2)

/-- The first launch's second result: the two cores' partial member counts (a column per core). -/
def partCounts (lab : (⟨2, ![1, 262144]⟩ : Shape).Idx → BitVec 32) : (⟨3, ![2, 64, 1]⟩ : Shape).Idx → EReal :=
  fun a => partCount lab (a 0) (a 1)

/-- The second launch's result: row `n` is the log-softmax of query row `n`'s similarities with the prototypes `P`,
    whose clamped norms are the one row `pn`. -/
def simOut (q : (⟨2, ![131072, 256]⟩ : Shape).Idx → EReal) (P : (⟨2, ![64, 256]⟩ : Shape).Idx → EReal)
    (pn : (⟨2, ![1, 64]⟩ : Shape).Idx → EReal) : (⟨2, ![131072, 64]⟩ : Shape).Idx → EReal :=
  fun a => Cert.Spec.rowOut (fun d => q (ix2 (a 0) d)) (fun k d => P (ix2 k d)) (fun k => pn (ix2 (0 : Fin 1) k)) (a 1)

end Cert.Arrays

end
-- ==== Proof.LibPlainDot.lean ====
/-
  A plain matrix product read at one entry. For the dimension numbers "rows × contraction by contraction × columns"
  with no batch axis, the product into a zero accumulator, at row `r` and column `q`, is the sum over the contracted
  coordinate `j` of the left operand at (r, j) times the right operand at (j, q). The same holds for the host's
  `dot_general`. Both are stated over extended reals, where the product is the exact sum.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The left operand's index at output entry (r, q) and contracted coordinate `j` is (r, j). -/
theorem plain_lhsIdx (M K N : Nat) (r : Fin M) (q : Fin N) (j : Fin K) :
    (DotDims.plain M K N).lhsIdx (ix2 r q) ((contrEquiv1 (DotDims.plain M K N) K rfl rfl).symm j) = ix2 r j := by
  have hj := contrEquiv1_symm_val (DotDims.plain M K N) K rfl rfl j
  funext a
  apply Fin.ext
  match a with
  | ⟨0, _⟩ => rfl
  | ⟨1, _⟩ => refine Eq.trans ?_ hj; rfl

/-- The right operand's index at output entry (r, q) and contracted coordinate `j` is (j, q). -/
theorem plain_rhsIdx (M K N : Nat) (r : Fin M) (q : Fin N) (j : Fin K) :
    (DotDims.plain M K N).rhsIdx (ix2 r q) ((contrEquiv1 (DotDims.plain M K N) K rfl rfl).symm j) = ix2 j q := by
  have hj := contrEquiv1_symm_val (DotDims.plain M K N) K rfl rfl j
  funext a
  apply Fin.ext
  match a with
  | ⟨0, _⟩ => refine Eq.trans ?_ hj; rfl
  | ⟨1, _⟩ => rfl

/-- The matrix unit's product into a zero accumulator, at one entry. -/
theorem matmul_plain_apply {φ₁ φ₂ : FTy} (M K N : Nat) (prec : Option ContractPrecision)
    (A : FVec Ideal ⟨2, ![M, K]⟩ φ₁) (B : FVec Ideal ⟨2, ![K, N]⟩ φ₂) (r : Fin M) (q : Fin N) :
    FloatOps.matmul (DotDims.plain M K N) prec A B (constant ⟨2, ![M, N]⟩ .f32 0x00000000#32) (ix2 r q)
      = ∑ j : Fin K, A (ix2 r j) * B (ix2 j q) := by
  rw [Ideal.matmul_constant_zero_apply, ← Equiv.sum_comp (contrEquiv1 (DotDims.plain M K N) K rfl rfl).symm]
  refine Finset.sum_congr rfl fun j _ => ?_
  rw [plain_lhsIdx, plain_rhsIdx]

/-- The host's `dot_general`, at one entry. -/
theorem dotGeneral_plain_apply {φ₁ φ₂ : FTy} (M K N : Nat) (prec : Option ContractPrecision) (sched : HostSchedule)
    (A : FVec Ideal ⟨2, ![M, K]⟩ φ₁) (B : FVec Ideal ⟨2, ![K, N]⟩ φ₂) (r : Fin M) (q : Fin N) :
    FloatOps.dotGeneral (DotDims.plain M K N) prec sched A B (ix2 r q) = ∑ j : Fin K, A (ix2 r j) * B (ix2 j q) := by
  rw [Ideal.dotGeneral_apply, ← Equiv.sum_comp (contrEquiv1 (DotDims.plain M K N) K rfl rfl).symm]
  refine Finset.sum_congr rfl fun j _ => ?_
  rw [plain_lhsIdx, plain_rhsIdx]

end Cert.LibPlainDot

end
-- ==== Proof.KProto.lean ====
/-
  The first launch's two result arrays after the run.

  The launch walks the support set in 32 tiles of 8192 rows, 16 per core. At each tile it forms the one-hot matrix
  of the tile's labels against the 64 classes and adds, into the core's block of sums, the product of that matrix
  with the tile's rows, and into the core's block of counts the row sums of that matrix; both blocks are zeroed at
  the core's first tile. Over the extended reals a one-hot entry times a value is the value or zero, so the product's
  entry (k, d) is the sum of column d over the tile's rows of class k, and a row sum is the number of such rows. By
  induction on the tile, after tile i of a core its blocks hold the sums of these contributions over tiles 0 … i; the
  blocks are written back after the core's last tile, and the two cores' blocks fill the two result arrays.
-/
import proofs.«421448_j35373350650479_2_alg».proof.Proof.Gen.KernelIdeal.Frame
import proofs.«421448_j35373350650479_2_alg».proof.Proof.Arrays
import proofs.«421448_j35373350650479_2_alg».proof.Proof.LibPlainDot
import Idealize.ShloMosaic.Lib.Pipeline.Value

set_option maxRecDepth 16384

noncomputable section

open scoped BigOperators

namespace Cert.KProto

open Idealize.ShloMosaic Idealize.ShloMosaic.TcCoe Idealize.ShloMosaic.ValueIdx Idealize.SL.Sem Cert.KernelIdeal Cert.KernelIdeal.Gen

/-! ## What each control case leaves in the two output blocks, as the body's arithmetic -/

section Pieces

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- Away from a core's first tile, the sums block becomes its old contents plus this tile's product. -/
theorem out_B_2 (c : Dev nD) (i : grid0.Coords) (a2 : Memref sig .tc .vmem S8192x256 .f32) (h2 : a2.IsWhole)
    (a3 : Memref sig .tc .vmem S1x8192 .i32) (h3 : a3.IsWhole) (a4 : Memref sig .tc .vmem S1x64x256 .f32) (h4 : a4.IsWhole)
    (a5 : Memref sig .tc .vmem S1x64x1 .f32) (h5 : a5.IsWhole) (hc : ¬cond0_0 i)
    (x0 : Vec F S8192x256 .f32) (x1 : Vec F S1x8192 .i32) (xo2 : Vec F S1x64x256 .f32) (xo3 : Vec F S1x64x1 .f32) :
    out0_B_2 c i a2 h2 a3 h3 a4 h4 a5 h5 hc x0 x1 xo2 xo3 = k0_pay4 x1 x0 xo2 := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread, View.ld_unit_zero (S := S8192x256) hz2,
    View.ld_unit_zero (S := S1x8192) hz2, View.ld_unit_zero (S := S1x64x256) hz3]

/-- Away from a core's first tile, the counts block becomes its old contents plus this tile's row sums. -/
theorem out_B_3 (c : Dev nD) (i : grid0.Coords) (a2 : Memref sig .tc .vmem S8192x256 .f32) (h2 : a2.IsWhole)
    (a3 : Memref sig .tc .vmem S1x8192 .i32) (h3 : a3.IsWhole) (a4 : Memref sig .tc .vmem S1x64x256 .f32) (h4 : a4.IsWhole)
    (a5 : Memref sig .tc .vmem S1x64x1 .f32) (h5 : a5.IsWhole) (hc : ¬cond0_0 i)
    (x0 : Vec F S8192x256 .f32) (x1 : Vec F S1x8192 .i32) (xo2 : Vec F S1x64x256 .f32) (xo3 : Vec F S1x64x1 .f32) :
    out0_B_3 c i a2 h2 a3 h3 a4 h4 a5 h5 hc x0 x1 xo2 xo3 = k0_pay5 x1 xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero hz3]
  simp only [View.readAt_eq_ld, h3.read_unread, h5.read_unread,
    View.ld_unit_zero (S := S1x8192) hz2, View.ld_unit_zero (S := S1x64x1) hz3]

/-- At a core's first tile, the sums block is zeroed and then takes this tile's product. -/
theorem out_A_2 (c : Dev nD) (i : grid0.Coords) (a2 : Memref sig .tc .vmem S8192x256 .f32) (h2 : a2.IsWhole)
    (a3 : Memref sig .tc .vmem S1x8192 .i32) (h3 : a3.IsWhole) (a4 : Memref sig .tc .vmem S1x64x256 .f32) (h4 : a4.IsWhole)
    (a5 : Memref sig .tc .vmem S1x64x1 .f32) (h5 : a5.IsWhole) (hc : cond0_0 i)
    (x0 : Vec F S8192x256 .f32) (x1 : Vec F S1x8192 .i32) :
    out0_A_2 c i a2 h2 a3 h3 a4 h4 a5 h5 hc x0 x1 = k0_pay4 x1 x0 (k0_pay1 (F := F)) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x64x256) hz3]
  simp only [View.readAt_eq_ld, h2.read_unread, h3.read_unread, View.ld_unit_zero (S := S8192x256) hz2,
    View.ld_unit_zero (S := S1x8192) hz2, View.readCov_unit_zero (S := S1x64x256) _ hz3]

/-- At a core's first tile, the counts block is zeroed and then takes this tile's row sums. -/
theorem out_A_3 (c : Dev nD) (i : grid0.Coords) (a2 : Memref sig .tc .vmem S8192x256 .f32) (h2 : a2.IsWhole)
    (a3 : Memref sig .tc .vmem S1x8192 .i32) (h3 : a3.IsWhole) (a4 : Memref sig .tc .vmem S1x64x256 .f32) (h4 : a4.IsWhole)
    (a5 : Memref sig .tc .vmem S1x64x1 .f32) (h5 : a5.IsWhole) (hc : cond0_0 i)
    (x0 : Vec F S8192x256 .f32) (x1 : Vec F S1x8192 .i32) :
    out0_A_3 c i a2 h2 a3 h3 a4 h4 a5 h5 hc x0 x1 = k0_pay5 x1 (k0_pay2 (F := F)) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x64x1) hz3]
  simp only [View.readAt_eq_ld, h3.read_unread,
    View.ld_unit_zero (S := S1x8192) hz2, View.readCov_unit_zero (S := S1x64x1) _ hz3]

end Pieces

/-! ## The body's arithmetic read at one entry, over the extended reals -/

section Payload

/-- A class label word that equals the class number `k` (below 64) is one whose signed value is `k`; the indicator
    word converted to a real is then one, and zero otherwise. -/
theorem hot_word (lab : BitVec 32) (k : Fin 64) :
    (FloatOps.sitofp (F := Ideal) .f32 ((IntOp.cmpi .eq (BitVec.ofNat 32 k.val) lab).setWidth 32) : EReal)
      = if lab.toInt = (k.val : ℤ) then 1 else 0 := by
  have hk : (BitVec.ofNat 32 k.val).toInt = (k.val : ℤ) := by
    have := k.isLt
    rw [BitVec.toInt_eq_toNat_cond, BitVec.toNat_ofNat]
    have e : k.val % 2 ^ 32 = k.val := Nat.mod_eq_of_lt (by omega)
    rw [e, if_pos (by omega)]
  show (((((IntOp.cmpi .eq (BitVec.ofNat 32 k.val) lab).setWidth 32).toInt : ℝ)) : EReal) = _
  by_cases h : lab = BitVec.ofNat 32 k.val
  · rw [if_pos (by rw [h]; exact hk)]
    subst h
    have e : (IntOp.cmpi .eq (BitVec.ofNat 32 k.val) (BitVec.ofNat 32 k.val)).setWidth 32 = 1#32 := by
      simp [IntOp.cmpi]
    rw [e]
    norm_num
  · have hne : ¬lab.toInt = (k.val : ℤ) := fun hh => h (BitVec.toInt_inj.mp (hh.trans hk.symm))
    rw [if_neg hne]
    have e : (IntOp.cmpi .eq (BitVec.ofNat 32 k.val) lab).setWidth 32 = 0#32 := by
      have : (BitVec.ofNat 32 k.val == lab) = false := by
        rw [beq_eq_false_iff_ne]; exact fun hh => h hh.symm
      simp [IntOp.cmpi, this]
    rw [e]
    norm_num

/-- The one-hot block at (class k, row j): one when row j's label is class k. -/
theorem hot_apply (v3 : Vec Ideal S1x8192 .i32) (k : Fin 64) (j : Fin 8192) :
    k0_pay3 (F := Ideal) v3 (ix2 k j) = if (v3 (ix2 (0 : Fin 1) j)).toInt = (k.val : ℤ) then (1 : EReal) else 0 := by
  refine Eq.trans ?_ (hot_word (v3 (ix2 (0 : Fin 1) j)) k)
  unfold k0_pay3
  dsimp only
  show FloatOps.sitofp (F := Ideal) .f32 ((IntOp.cmpi .eq (iota .tc S64x8192 32 [0] iota_S64x8192_d0_w32 (ix2 k j))
    (broadcastTo S64x8192 (shapeCast S1x8192 v3 shapeCasts_S1x8192_S1x8192) broadcasts_S1x8192_S64x8192 (ix2 k j))).setWidth 32) = _
  rw [iota_single_apply, shapeCast_self,
    broadcastTo_apply v3 broadcasts_S1x8192_S64x8192 (ix2 k j) (ix2 (0 : Fin 1) j)
      (fun a => match a with | ⟨0, _⟩ => rfl | ⟨1, _⟩ => rfl)]

/-- The zero blocks a core's first tile starts from. -/
theorem pay1_apply (y : S1x64x256.Idx) : k0_pay1 (F := Ideal) y = 0 := by
  unfold k0_pay1
  rw [shapeCast_apply _ shapeCasts_S64x256_S1x64x256 y (ix2 (y 1) (y 2)) (by
    rw [Shape.rowMajor_val_two, Shape.rowMajor_val_three]
    have h0 : (y 0).val < 1 := (y 0).isLt
    show (y 1).val * 256 + (y 2).val = ((y 0).val * 64 + (y 1).val) * 256 + (y 2).val
    omega)]
  exact Ideal.ofBits_zero_f32

theorem pay2_apply (y : S1x64x1.Idx) : k0_pay2 (F := Ideal) y = 0 := by
  unfold k0_pay2
  rw [shapeCast_apply _ shapeCasts_S64x1_S1x64x1 y (ix2 (y 1) (y 2)) (by
    rw [Shape.rowMajor_val_two, Shape.rowMajor_val_three]
    have h0 : (y 0).val < 1 := (y 0).isLt
    show (y 1).val * 1 + (y 2).val = ((y 0).val * 64 + (y 1).val) * 1 + (y 2).val
    omega)]
  exact Ideal.ofBits_zero_f32

/-- The dimension numbers of the body's product are the plain rows-by-columns ones. -/
theorem dot_eq_plain : dot_S64x8192_S8192x256_S64x256_1_0_0_1_n_n = DotDims.plain 64 8192 256 := rfl

/-- An indicator times a value is the value where the indicator holds. -/
theorem ite_one_zero_mul (p : Prop) [Decidable p] (x : EReal) : (if p then (1 : EReal) else 0) * x = if p then x else 0 := by
  split
  · exact one_mul x
  · exact zero_mul x

/-- The sums block's update at (0, k, d): the old entry plus the sum, over the tile's rows of class k, of column d. -/
theorem pay4_apply (v3 : Vec Ideal S1x8192 .i32) (v10 : Vec Ideal S8192x256 .f32) (v14 : Vec Ideal S1x64x256 .f32)
    (k : Fin 64) (d : Fin 256) :
    k0_pay4 (F := Ideal) v3 v10 v14 (ix3 (0 : Fin 1) k d)
      = v14 (ix3 (0 : Fin 1) k d)
        + ∑ j : Fin 8192, if (v3 (ix2 (0 : Fin 1) j)).toInt = (k.val : ℤ) then v10 (ix2 j d) else 0 := by
  unfold k0_pay4
  refine (shapeCast_apply _ shapeCasts_S64x256_S1x64x256 (ix3 (0 : Fin 1) k d) (ix2 k d) (by
    rw [Shape.rowMajor_val_two, Shape.rowMajor_val_three]
    show k.val * 256 + d.val = (0 * 64 + k.val) * 256 + d.val
    omega)).trans ?_
  refine (addf_apply _ _ (ix2 k d)).trans ?_
  refine congrArg₂ (· + ·) ?_ ?_
  · exact shapeCast_apply v14 shapeCasts_S1x64x256_S64x256 (ix2 k d) (ix3 (0 : Fin 1) k d) (by
      rw [Shape.rowMajor_val_two, Shape.rowMajor_val_three]
      show (0 * 64 + k.val) * 256 + d.val = k.val * 256 + d.val
      omega)
  · rw [dot_eq_plain]
    refine (Cert.LibPlainDot.matmul_plain_apply 64 8192 256 none _ _ k d).trans ?_
    refine Finset.sum_congr rfl fun j _ => ?_
    rw [truncf_apply, truncf_apply, hot_apply, ite_one_zero_mul]

/-- The counts block's update at (0, k, 0): the old entry plus the number of the tile's rows of class k. -/
theorem pay5_apply (v3 : Vec Ideal S1x8192 .i32) (v20 : Vec Ideal S1x64x1 .f32) (k : Fin 64) (e : Fin 1) :
    k0_pay5 (F := Ideal) v3 v20 (ix3 (0 : Fin 1) k e)
      = v20 (ix3 (0 : Fin 1) k e)
        + ∑ j : Fin 8192, if (v3 (ix2 (0 : Fin 1) j)).toInt = (k.val : ℤ) then (1 : EReal) else 0 := by
  have he : e.val = 0 := by have := e.isLt; omega
  unfold k0_pay5
  refine (shapeCast_apply _ shapeCasts_S64x1_S1x64x1 (ix3 (0 : Fin 1) k e) (ix2 k e) (by
    rw [Shape.rowMajor_val_two, Shape.rowMajor_val_three]
    show k.val * 1 + e.val = (0 * 64 + k.val) * 1 + e.val
    omega)).trans ?_
  refine (addf_apply _ _ (ix2 k e)).trans ?_
  refine congrArg₂ (· + ·) ?_ ?_
  · exact shapeCast_apply v20 shapeCasts_S1x64x1_S64x1 (ix2 k e) (ix3 (0 : Fin 1) k e) (by
      rw [Shape.rowMajor_val_two, Shape.rowMajor_val_three]
      show (0 * 64 + k.val) * 1 + e.val = k.val * 1 + e.val
      omega)
  · refine (shapeCast_apply _ shapeCasts_S64_S64x1 (ix2 k e) (ix1 k) (by
      rw [Shape.rowMajor_val_one, Shape.rowMajor_val_two]
      show k.val = k.val * 1 + e.val
      omega)).trans ?_
    refine (Ideal.multiReduction_add_single (k0_pay3 (F := Ideal) v3) 0x00000000#32 reduces_S64x8192_S64 (.inl rfl) rfl (ix1 k)).trans ?_
    show ∑ j : Fin 8192, k0_pay3 (F := Ideal) v3 (reduces_S64x8192_S64.lift (ix1 k) j) = _
    refine Finset.sum_congr rfl fun j _ => ?_
    have hl : reduces_S64x8192_S64.lift (ix1 k) j = ix2 k j :=
      funext fun a => Fin.ext (by match a with | ⟨0, _⟩ => rfl | ⟨1, _⟩ => rfl)
    rw [hl, hot_apply]

end Payload

/-! ## Sums over the first tiles of a core -/

section Partial

/-- The sum of `f` over the tiles up to tile `m`. -/
def upTo (f : Fin 16 → EReal) (m : ℕ) : EReal := ∑ i : Fin 16, if i.val ≤ m then f i else 0

theorem upTo_zero (f : Fin 16 → EReal) : upTo f 0 = f 0 := by
  unfold upTo
  rw [Finset.sum_eq_single (0 : Fin 16)]
  · rw [if_pos (by show (0 : Fin 16).val ≤ 0; exact Nat.le_refl 0)]
  · intro i _ hi
    rw [if_neg (fun h => hi (Fin.ext (by show i.val = 0; omega)))]
  · intro h; exact absurd (Finset.mem_univ _) h

theorem upTo_succ (f : Fin 16 → EReal) (m : ℕ) (hm : m + 1 < 16) : upTo f (m + 1) = upTo f m + f ⟨m + 1, hm⟩ := by
  unfold upTo
  have e : ∀ i : Fin 16, (if i.val ≤ m + 1 then f i else 0)
      = (if i.val ≤ m then f i else 0) + (if i = ⟨m + 1, hm⟩ then f i else 0) := by
    intro i
    by_cases h1 : i.val ≤ m
    · rw [if_pos h1, if_pos (by omega), if_neg (fun h => by have := congrArg Fin.val h; simp at this; omega), add_zero]
    · by_cases h2 : i.val = m + 1
      · rw [if_neg h1, if_pos (by omega), if_pos (Fin.ext h2), zero_add]
      · rw [if_neg h1, if_neg (by omega), if_neg (fun h => h2 (congrArg Fin.val h)), add_zero]
  rw [Finset.sum_congr rfl fun i _ => e i, Finset.sum_add_distrib, Finset.sum_ite_eq' Finset.univ (⟨m + 1, hm⟩ : Fin 16) f,
    if_pos (Finset.mem_univ _)]

theorem upTo_full (f : Fin 16 → EReal) : upTo f 15 = ∑ i : Fin 16, f i := by
  unfold upTo
  exact Finset.sum_congr rfl fun i _ => if_pos (by have := i.isLt; omega)

end Partial

/-! ## The tiles the body reads, and the tile sums -/

section Run

variable (V : (c : Dev nD) → (b : Ref sig .tc) → Buf (Elt Ideal) ((c : Thread nD τ).loc b))

/-- The support rows and the label row as the launch finds them, and the tiles of them a grid point reads. -/
abbrev xarr (c : Dev nD) : Vec Ideal S262144x256 .f32 := V c main_arg0
abbrev larr (c : Dev nD) : Vec Ideal S1x262144 .i32 := V c main_v0
abbrev xblk (c : Dev nD) (t : Fin cfg0.N) : Vec Ideal S8192x256 .f32 := iblk0 V c 0 t
abbrev lblk (c : Dev nD) (t : Fin cfg0.N) : Vec Ideal S1x8192 .i32 := iblk0 V c 1 t

/-- Where each window's block sits at grid point t: the support tile and the label tile at block t, the two output
    blocks at block t / 16 (the core). -/
theorem idx_facts : ∀ t : Fin cfg0.N,
    (win0_0.index t 0 = t.val ∧ win0_0.index t 1 = 0) ∧ (win0_1.index t 0 = 0 ∧ win0_1.index t 1 = t.val)
    ∧ (win0_2.index t 0 = t.val / 16 ∧ win0_2.index t 1 = 0 ∧ win0_2.index t 2 = 0)
    ∧ (win0_3.index t 0 = t.val / 16 ∧ win0_3.index t 1 = 0 ∧ win0_3.index t 2 = 0) :=
  (by decide +kernel : ∀ t : Fin grid0.N,
    (win0_0.index t 0 = t.val ∧ win0_0.index t 1 = 0) ∧ (win0_1.index t 0 = 0 ∧ win0_1.index t 1 = t.val)
    ∧ (win0_2.index t 0 = t.val / 16 ∧ win0_2.index t 1 = 0 ∧ win0_2.index t 2 = 0)
    ∧ (win0_3.index t 0 = t.val / 16 ∧ win0_3.index t 1 = 0 ∧ win0_3.index t 2 = 0))

/-- The support tile of point 16·core + i holds, at (j, d), the support row of that tile's offset j. -/
theorem xblk_apply (c : Dev nD) (t : Fin cfg0.N) (core : Fin 2) (i : Fin 16) (ht : t.val = 16 * core.val + i.val)
    (j : Fin 8192) (d : Fin 256) :
    xblk V c t (ix2 j d) = xarr V c (ix2 (Cert.Arrays.rowOf core i j) d) := by
  have hi := (idx_facts t).1
  show iblk0 V c 0 t (ix2 j d) = _
  unfold iblk0
  rw [View.read_apply]
  show V c main_arg0 _ = V c main_arg0 _
  congr 1
  funext a
  apply Fin.ext
  match a with
  | ⟨0, _⟩ =>
    show win0_0.index t 0 * 8192 + 1 * j.val = 8192 * (16 * core.val + i.val) + j.val
    rw [hi.1, ht]; omega
  | ⟨1, _⟩ =>
    show win0_0.index t 1 * 256 + 1 * d.val = d.val
    rw [hi.2]; omega

/-- The label tile of point 16·core + i holds, at (0, j), the label of that tile's offset j. -/
theorem lblk_apply (c : Dev nD) (t : Fin cfg0.N) (core : Fin 2) (i : Fin 16) (ht : t.val = 16 * core.val + i.val)
    (j : Fin 8192) :
    lblk V c t (ix2 (0 : Fin 1) j) = larr V c (ix2 (0 : Fin 1) (Cert.Arrays.rowOf core i j)) := by
  have hi := (idx_facts t).2.1
  show iblk0 V c 1 t (ix2 (0 : Fin 1) j) = _
  unfold iblk0
  rw [View.read_apply]
  show V c main_v0 _ = V c main_v0 _
  congr 1
  funext a
  apply Fin.ext
  match a with
  | ⟨0, _⟩ =>
    show win0_1.index t 0 * 1 + 1 * 0 = 0
    rw [hi.1]
  | ⟨1, _⟩ =>
    show win0_1.index t 1 * 8192 + 1 * j.val = 8192 * (16 * core.val + i.val) + j.val
    rw [hi.2, ht]; omega

/-! ## What the two output blocks hold after each grid point -/

/-- Tile (core, i)'s contribution to class k's sum in column d, and to class k's count. -/
def tileSum (x : Vec Ideal S262144x256 .f32) (lab : Vec Ideal S1x262144 .i32) (core : Fin 2) (k : Fin 64) (d : Fin 256)
    (i : Fin 16) : EReal :=
  ∑ j : Fin 8192, if (lab (ix2 (0 : Fin 1) (Cert.Arrays.rowOf core i j))).toInt = (k.val : ℤ)
    then x (ix2 (Cert.Arrays.rowOf core i j) d) else 0

def tileCount (lab : Vec Ideal S1x262144 .i32) (core : Fin 2) (k : Fin 64) (i : Fin 16) : EReal :=
  ∑ j : Fin 8192, if (lab (ix2 (0 : Fin 1) (Cert.Arrays.rowOf core i j))).toInt = (k.val : ℤ) then (1 : EReal) else 0

theorem tileSum_of_blocks (c : Dev nD) (t : Fin cfg0.N) (core : Fin 2) (i : Fin 16) (ht : t.val = 16 * core.val + i.val)
    (k : Fin 64) (d : Fin 256) :
    (∑ j : Fin 8192, if (lblk V c t (ix2 (0 : Fin 1) j)).toInt = (k.val : ℤ) then xblk V c t (ix2 j d) else 0)
      = tileSum (xarr V c) (larr V c) core k d i := by
  unfold tileSum
  refine Finset.sum_congr rfl fun j _ => ?_
  rw [xblk_apply V c t core i ht, lblk_apply V c t core i ht]

theorem tileCount_of_blocks (c : Dev nD) (t : Fin cfg0.N) (core : Fin 2) (i : Fin 16) (ht : t.val = 16 * core.val + i.val)
    (k : Fin 64) :
    (∑ j : Fin 8192, if (lblk V c t (ix2 (0 : Fin 1) j)).toInt = (k.val : ℤ) then (1 : EReal) else 0)
      = tileCount (larr V c) core k i := by
  unfold tileCount
  refine Finset.sum_congr rfl fun j _ => ?_
  rw [lblk_apply V c t core i ht]

/-- At a core's first tile the sums block holds that tile's contribution. -/
theorem sums_A (c : Dev nD) (t : Fin cfg0.N) (h0 : t.val % 16 = 0) (core : Fin 2) (i : Fin 16)
    (ht : t.val = 16 * core.val + i.val) (k : Fin 64) (d : Fin 256) :
    (outsAt0 V c t.val t.isLt).1 (ix3 (0 : Fin 1) k d) = tileSum (xarr V c) (larr V c) core k d i := by
  rw [outsAt0_A V c t h0]
  dsimp only
  refine (congrFun (out_A_2 (F := Ideal) c (grid0.coords t) (ms0_0 t) (hs0_0 t) (ms0_1 t) (hs0_1 t) (ms0_2 t) (hs0_2 t) (ms0_3 t) (hs0_3 t) ((hcond0_0 t).mpr h0) (xblk V c t) (lblk V c t)) (ix3 (0 : Fin 1) k d)).trans ?_
  refine (pay4_apply (lblk V c t) (xblk V c t) (k0_pay1 (F := Ideal)) k d).trans ?_
  rw [pay1_apply, zero_add]
  exact tileSum_of_blocks V c t core i ht k d

/-- At a later tile it holds what the tile before left plus this tile's contribution. -/
theorem sums_B (c : Dev nD) (t : Fin cfg0.N) (h0 : ¬t.val % 16 = 0) (core : Fin 2) (i : Fin 16)
    (ht : t.val = 16 * core.val + i.val) (k : Fin 64) (d : Fin 256) :
    (outsAt0 V c t.val t.isLt).1 (ix3 (0 : Fin 1) k d)
      = (outsAt0 V c (t.val - 1) (Nat.lt_of_le_of_lt (Nat.sub_le _ _) t.isLt)).1 (ix3 (0 : Fin 1) k d) + tileSum (xarr V c) (larr V c) core k d i := by
  rw [outsAt0_B V c t h0]
  dsimp only
  refine (congrFun (out_B_2 (F := Ideal) c (grid0.coords t) (ms0_0 t) (hs0_0 t) (ms0_1 t) (hs0_1 t) (ms0_2 t) (hs0_2 t) (ms0_3 t) (hs0_3 t) (fun h => h0 ((hcond0_0 t).mp h)) (xblk V c t) (lblk V c t)
    (outsAt0 V c (t.val - 1) (Nat.lt_of_le_of_lt (Nat.sub_le _ _) t.isLt)).1 (outsAt0 V c (t.val - 1) (Nat.lt_of_le_of_lt (Nat.sub_le _ _) t.isLt)).2) (ix3 (0 : Fin 1) k d)).trans ?_
  refine (pay4_apply (lblk V c t) (xblk V c t) (outsAt0 V c (t.val - 1) (Nat.lt_of_le_of_lt (Nat.sub_le _ _) t.isLt)).1 k d).trans ?_
  rw [tileSum_of_blocks V c t core i ht k d]

/-- So after point 16·core + i the sums block holds the contributions of the core's tiles 0 … i. -/
theorem sums_inv (c : Dev nD) : ∀ (n : ℕ) (hn : n < cfg0.N) (core : Fin 2) (i : Fin 16), n = 16 * core.val + i.val →
    ∀ (k : Fin 64) (d : Fin 256),
      (outsAt0 V c n hn).1 (ix3 (0 : Fin 1) k d) = upTo (tileSum (xarr V c) (larr V c) core k d) i.val
  | 0, hn, core, i, h, k, d => by
    have hi : i = 0 := Fin.ext (by show i.val = 0; omega)
    subst hi
    rw [show ((0 : Fin 16).val) = 0 from rfl, upTo_zero]
    exact sums_A V c ⟨0, hn⟩ rfl core 0 h k d
  | n + 1, hn, core, i, h, k, d => by
    by_cases h0 : (n + 1) % 16 = 0
    · have hi : i = 0 := Fin.ext (by show i.val = 0; have := i.isLt; omega)
      subst hi
      rw [show ((0 : Fin 16).val) = 0 from rfl, upTo_zero]
      exact sums_A V c ⟨n + 1, hn⟩ h0 core 0 h k d
    · obtain ⟨m, hm⟩ : ∃ m, i.val = m + 1 := ⟨i.val - 1, by have := i.isLt; omega⟩
      have hm16 : m + 1 < 16 := by have := i.isLt; omega
      obtain rfl : i = ⟨m + 1, hm16⟩ := Fin.ext hm
      show _ = upTo _ (m + 1)
      rw [upTo_succ _ m hm16]
      refine (sums_B V c ⟨n + 1, hn⟩ h0 core ⟨m + 1, hm16⟩ h k d).trans ?_
      show (outsAt0 V c n (Nat.lt_of_succ_lt hn)).1 (ix3 (0 : Fin 1) k d) + _ = _
      rw [sums_inv c n (Nat.lt_of_succ_lt hn) core ⟨m, by omega⟩ (by have h' : n + 1 = 16 * core.val + (m + 1) := h; show n = 16 * core.val + m; omega) k d]

/-- At a core's first tile the counts block holds that tile's count. -/
theorem cnt_A (c : Dev nD) (t : Fin cfg0.N) (h0 : t.val % 16 = 0) (core : Fin 2) (i : Fin 16)
    (ht : t.val = 16 * core.val + i.val) (k : Fin 64) (e : Fin 1) :
    (outsAt0 V c t.val t.isLt).2 (ix3 (0 : Fin 1) k e) = tileCount (larr V c) core k i := by
  rw [outsAt0_A V c t h0]
  dsimp only
  refine (congrFun (out_A_3 (F := Ideal) c (grid0.coords t) (ms0_0 t) (hs0_0 t) (ms0_1 t) (hs0_1 t) (ms0_2 t) (hs0_2 t) (ms0_3 t) (hs0_3 t) ((hcond0_0 t).mpr h0) (xblk V c t) (lblk V c t)) (ix3 (0 : Fin 1) k e)).trans ?_
  refine (pay5_apply (lblk V c t) (k0_pay2 (F := Ideal)) k e).trans ?_
  rw [pay2_apply, zero_add]
  exact tileCount_of_blocks V c t core i ht k

/-- At a later tile it holds what the tile before left plus this tile's count. -/
theorem cnt_B (c : Dev nD) (t : Fin cfg0.N) (h0 : ¬t.val % 16 = 0) (core : Fin 2) (i : Fin 16)
    (ht : t.val = 16 * core.val + i.val) (k : Fin 64) (e : Fin 1) :
    (outsAt0 V c t.val t.isLt).2 (ix3 (0 : Fin 1) k e)
      = (outsAt0 V c (t.val - 1) (Nat.lt_of_le_of_lt (Nat.sub_le _ _) t.isLt)).2 (ix3 (0 : Fin 1) k e) + tileCount (larr V c) core k i := by
  rw [outsAt0_B V c t h0]
  dsimp only
  refine (congrFun (out_B_3 (F := Ideal) c (grid0.coords t) (ms0_0 t) (hs0_0 t) (ms0_1 t) (hs0_1 t) (ms0_2 t) (hs0_2 t) (ms0_3 t) (hs0_3 t) (fun h => h0 ((hcond0_0 t).mp h)) (xblk V c t) (lblk V c t)
    (outsAt0 V c (t.val - 1) (Nat.lt_of_le_of_lt (Nat.sub_le _ _) t.isLt)).1 (outsAt0 V c (t.val - 1) (Nat.lt_of_le_of_lt (Nat.sub_le _ _) t.isLt)).2) (ix3 (0 : Fin 1) k e)).trans ?_
  refine (pay5_apply (lblk V c t) (outsAt0 V c (t.val - 1) (Nat.lt_of_le_of_lt (Nat.sub_le _ _) t.isLt)).2 k e).trans ?_
  rw [tileCount_of_blocks V c t core i ht k]

/-- So after point 16·core + i the counts block holds the counts of the core's tiles 0 … i. -/
theorem cnt_inv (c : Dev nD) : ∀ (n : ℕ) (hn : n < cfg0.N) (core : Fin 2) (i : Fin 16), n = 16 * core.val + i.val →
    ∀ (k : Fin 64) (e : Fin 1),
      (outsAt0 V c n hn).2 (ix3 (0 : Fin 1) k e) = upTo (tileCount (larr V c) core k) i.val
  | 0, hn, core, i, h, k, e => by
    have hi : i = 0 := Fin.ext (by show i.val = 0; omega)
    subst hi
    rw [show ((0 : Fin 16).val) = 0 from rfl, upTo_zero]
    exact cnt_A V c ⟨0, hn⟩ rfl core 0 h k e
  | n + 1, hn, core, i, h, k, e => by
    by_cases h0 : (n + 1) % 16 = 0
    · have hi : i = 0 := Fin.ext (by show i.val = 0; have := i.isLt; omega)
      subst hi
      rw [show ((0 : Fin 16).val) = 0 from rfl, upTo_zero]
      exact cnt_A V c ⟨n + 1, hn⟩ h0 core 0 h k e
    · obtain ⟨m, hm⟩ : ∃ m, i.val = m + 1 := ⟨i.val - 1, by have := i.isLt; omega⟩
      have hm16 : m + 1 < 16 := by have := i.isLt; omega
      obtain rfl : i = ⟨m + 1, hm16⟩ := Fin.ext hm
      show _ = upTo _ (m + 1)
      rw [upTo_succ _ m hm16]
      refine (cnt_B V c ⟨n + 1, hn⟩ h0 core ⟨m + 1, hm16⟩ h k e).trans ?_
      show (outsAt0 V c n (Nat.lt_of_succ_lt hn)).2 (ix3 (0 : Fin 1) k e) + _ = _
      rw [cnt_inv c n (Nat.lt_of_succ_lt hn) core ⟨m, by omega⟩ (by have h' : n + 1 = 16 * core.val + (m + 1) := h; show n = 16 * core.val + m; omega) k e]

/-! ## From the blocks to the arrays -/

/-- What a writing-back point (the last tile of a core) writes of the sums: the core's block of the partial sums. -/
theorem flushed2_eq (c : Dev nD) (t : Fin cfg0.N) (hf : (cfg0.win 2).flush t = true) :
    (dat0 V c).flushed 2 t
      = ((cfg0.win 2).blk t).view.read (Elt Ideal) (Cert.Arrays.partSums (V c main_arg0) (V c main_v0)) := by
  have h15 : t.val % 16 = 15 := (flush0_2 t).mp hf
  have hN : cfg0.N = 32 := N_0
  have hlt : t.val < 32 := hN ▸ t.isLt
  have hi := (idx_facts t).2.2.1
  have hcore : t.val / 16 < 2 := by omega
  show (cfg0.win 2).cut (grid0.coords t) ((dat0 V c).after 2 t) = _
  rw [after0_2]
  refine funext fun (y : S1x64x256.Idx) => ?_
  obtain ⟨a, k, d, rfl⟩ : ∃ (a : Fin 1) (k : Fin 64) (d : Fin 256), y = ix3 a k d := ⟨y 0, y 1, y 2, eq_ix3 y⟩
  obtain rfl : a = 0 := Subsingleton.elim _ _
  show (outsAt0 V c t.val t.isLt).1 (ix3 (0 : Fin 1) k d)
    = Cert.Arrays.partSums (xarr V c) (larr V c) (((cfg0.win 2).blk t).view.emb (ix3 (0 : Fin 1) k d))
  rw [sums_inv V c t.val t.isLt ⟨t.val / 16, hcore⟩ ⟨15, by omega⟩ (by show t.val = 16 * (t.val / 16) + 15; omega) k d]
  show upTo _ 15 = _
  rw [upTo_full]
  have e0 : ((cfg0.win 2).blk t).view.emb (ix3 (0 : Fin 1) k d) = ix3 (⟨t.val / 16, hcore⟩ : Fin 2) k d := by
    funext b; apply Fin.ext
    match b with
    | ⟨0, _⟩ => show win0_2.index t 0 * 1 + 1 * 0 = t.val / 16; rw [hi.1]; omega
    | ⟨1, _⟩ => show win0_2.index t 1 * 64 + 1 * k.val = k.val; rw [hi.2.1]; omega
    | ⟨2, _⟩ => show win0_2.index t 2 * 256 + 1 * d.val = d.val; rw [hi.2.2]; omega
  rw [e0]
  rfl

theorem mem_blk2 (t : Fin cfg0.N) (i : S2x64x256.Idx) :
    i ∈ ((cfg0.win 2).blk t).view.set ↔ ∀ a : Fin 3, win0_2.index t a * S1x64x256.size a ≤ (i a).val
      ∧ (i a).val < win0_2.index t a * S1x64x256.size a + S1x64x256.size a := by
  show i ∈ ((View.whole main_v1_0).slice (win0_2.rect t)).set ↔ _
  rw [View.set_slice_whole, Rect.mem_set_unit]
  exact Iff.rfl

/-- Every entry of the sums array lies in the block its core's last tile writes back. -/
theorem cover2 (i : S2x64x256.Idx) :
    ∃ t : Fin cfg0.N, (cfg0.win 2).flush t = true ∧ i ∈ ((cfg0.win 2).blk t).view.set := by
  have hN : cfg0.N = 32 := N_0
  have h0 : (i 0).val < 2 := (i 0).isLt
  have h1 : (i 1).val < 64 := (i 1).isLt
  have h2 : (i 2).val < 256 := (i 2).isLt
  refine ⟨⟨16 * (i 0).val + 15, by rw [hN]; omega⟩, (flush0_2 _).mpr (by show (16 * (i 0).val + 15) % 16 = 15; omega), ?_⟩
  have hi := (idx_facts ⟨16 * (i 0).val + 15, by rw [hN]; omega⟩).2.2.1
  rw [mem_blk2]
  intro a
  match a with
  | ⟨0, _⟩ =>
    show win0_2.index _ 0 * 1 ≤ (i 0).val ∧ (i 0).val < win0_2.index _ 0 * 1 + 1
    rw [hi.1]; show (16 * (i 0).val + 15) / 16 * 1 ≤ (i 0).val ∧ (i 0).val < (16 * (i 0).val + 15) / 16 * 1 + 1; omega
  | ⟨1, _⟩ =>
    show win0_2.index _ 1 * 64 ≤ (i 1).val ∧ (i 1).val < win0_2.index _ 1 * 64 + 64
    rw [hi.2.1]; omega
  | ⟨2, _⟩ =>
    show win0_2.index _ 2 * 256 ≤ (i 2).val ∧ (i 2).val < win0_2.index _ 2 * 256 + 256
    rw [hi.2.2]; omega

/-- What a writing-back point writes of the counts: the core's block of the partial counts. -/
theorem flushed3_eq (c : Dev nD) (t : Fin cfg0.N) (hf : (cfg0.win 3).flush t = true) :
    (dat0 V c).flushed 3 t = ((cfg0.win 3).blk t).view.read (Elt Ideal) (Cert.Arrays.partCounts (V c main_v0)) := by
  have h15 : t.val % 16 = 15 := (flush0_3 t).mp hf
  have hN : cfg0.N = 32 := N_0
  have hlt : t.val < 32 := hN ▸ t.isLt
  have hi := (idx_facts t).2.2.2
  have hcore : t.val / 16 < 2 := by omega
  show (cfg0.win 3).cut (grid0.coords t) ((dat0 V c).after 3 t) = _
  rw [after0_3]
  refine funext fun (y : S1x64x1.Idx) => ?_
  obtain ⟨a, k, e, rfl⟩ : ∃ (a : Fin 1) (k : Fin 64) (e : Fin 1), y = ix3 a k e := ⟨y 0, y 1, y 2, eq_ix3 y⟩
  obtain rfl : a = 0 := Subsingleton.elim _ _
  show (outsAt0 V c t.val t.isLt).2 (ix3 (0 : Fin 1) k e)
    = Cert.Arrays.partCounts (larr V c) (((cfg0.win 3).blk t).view.emb (ix3 (0 : Fin 1) k e))
  rw [cnt_inv V c t.val t.isLt ⟨t.val / 16, hcore⟩ ⟨15, by omega⟩ (by show t.val = 16 * (t.val / 16) + 15; omega) k e]
  show upTo _ 15 = _
  rw [upTo_full]
  have e0 : ((cfg0.win 3).blk t).view.emb (ix3 (0 : Fin 1) k e) = ix3 (⟨t.val / 16, hcore⟩ : Fin 2) k e := by
    funext b; apply Fin.ext
    match b with
    | ⟨0, _⟩ => show win0_3.index t 0 * 1 + 1 * 0 = t.val / 16; rw [hi.1]; omega
    | ⟨1, _⟩ => show win0_3.index t 1 * 64 + 1 * k.val = k.val; rw [hi.2.1]; omega
    | ⟨2, _⟩ => show win0_3.index t 2 * 1 + 1 * e.val = e.val; rw [hi.2.2]; omega
  rw [e0]
  rfl

theorem mem_blk3 (t : Fin cfg0.N) (i : S2x64x1.Idx) :
    i ∈ ((cfg0.win 3).blk t).view.set ↔ ∀ a : Fin 3, win0_3.index t a * S1x64x1.size a ≤ (i a).val
      ∧ (i a).val < win0_3.index t a * S1x64x1.size a + S1x64x1.size a := by
  show i ∈ ((View.whole main_v1_1).slice (win0_3.rect t)).set ↔ _
  rw [View.set_slice_whole, Rect.mem_set_unit]
  exact Iff.rfl

/-- Every entry of the counts array lies in the block its core's last tile writes back. -/
theorem cover3 (i : S2x64x1.Idx) :
    ∃ t : Fin cfg0.N, (cfg0.win 3).flush t = true ∧ i ∈ ((cfg0.win 3).blk t).view.set := by
  have hN : cfg0.N = 32 := N_0
  have h0 : (i 0).val < 2 := (i 0).isLt
  have h1 : (i 1).val < 64 := (i 1).isLt
  have h2 : (i 2).val < 1 := (i 2).isLt
  refine ⟨⟨16 * (i 0).val + 15, by rw [hN]; omega⟩, (flush0_3 _).mpr (by show (16 * (i 0).val + 15) % 16 = 15; omega), ?_⟩
  have hi := (idx_facts ⟨16 * (i 0).val + 15, by rw [hN]; omega⟩).2.2.2
  rw [mem_blk3]
  intro a
  match a with
  | ⟨0, _⟩ =>
    show win0_3.index _ 0 * 1 ≤ (i 0).val ∧ (i 0).val < win0_3.index _ 0 * 1 + 1
    rw [hi.1]; show (16 * (i 0).val + 15) / 16 * 1 ≤ (i 0).val ∧ (i 0).val < (16 * (i 0).val + 15) / 16 * 1 + 1; omega
  | ⟨1, _⟩ =>
    show win0_3.index _ 1 * 64 ≤ (i 1).val ∧ (i 1).val < win0_3.index _ 1 * 64 + 64
    rw [hi.2.1]; omega
  | ⟨2, _⟩ =>
    show win0_3.index _ 2 * 1 ≤ (i 2).val ∧ (i 2).val < win0_3.index _ 2 * 1 + 1
    rw [hi.2.2]; omega

end Run

/-- After the first launch its first result array holds the two cores' partial class sums of the support rows. -/
theorem arr2_eq (V : (c : Dev nD) → (b : Ref sig .tc) → Buf (Elt Ideal) ((c : Thread nD τ).loc b)) (c : Dev nD) :
    (dat0 (F := Ideal) V c).arrAt 2 cfg0.N = Cert.Arrays.partSums (V c main_arg0) (V c main_v0) :=
  (dat0 (F := Ideal) V c).arrAt_eq_of_cover 2 (Cert.Arrays.partSums (V c main_arg0) (V c main_v0)) (flushed2_eq V c) cover2

/-- After the first launch its second result array holds the two cores' partial member counts. -/
theorem arr3_eq (V : (c : Dev nD) → (b : Ref sig .tc) → Buf (Elt Ideal) ((c : Thread nD τ).loc b)) (c : Dev nD) :
    (dat0 (F := Ideal) V c).arrAt 3 cfg0.N = Cert.Arrays.partCounts (V c main_v0) :=
  (dat0 (F := Ideal) V c).arrAt_eq_of_cover 3 (Cert.Arrays.partCounts (V c main_v0)) (flushed3_eq V c) cover3

end Cert.KProto

end
-- ==== Proof.LibDotNT.lean ====
/-
  A matrix product against a transposed right operand, read at one entry. For the dimension numbers "rows × contraction
  by columns × contraction" with no batch axis (both operands contracted on their last axis), the product into a zero
  accumulator, at row `r` and column `q`, is the sum over the contracted coordinate `j` of the left operand at (r, j)
  times the right operand at (q, j). The same holds for the host's `dot_general`. Both are stated over extended reals,
  where the product is the exact sum.
-/
import Idealize.ShloMosaic.PureOps.Ideal.Laws
import Idealize.ShloMosaic.Lib.ValueIdx

noncomputable section

open scoped BigOperators

namespace Cert.LibDotNT

open Idealize.ShloMosaic Idealize.ShloMosaic.ValueIdx

/-- The left operand's index at output entry (r, q) and contracted coordinate `j` is (r, j). -/
theorem nt_lhsIdx (M K N : Nat) (r : Fin M) (q : Fin N) (j : Fin K) :
    (DotDims.transposedRhs M K N).lhsIdx (ix2 r q) ((contrEquiv1 (DotDims.transposedRhs M K N) K rfl rfl).symm j) = ix2 r j := by
  have hj := contrEquiv1_symm_val (DotDims.transposedRhs M K N) K rfl rfl j
  funext a
  apply Fin.ext
  match a with
  | ⟨0, _⟩ => rfl
  | ⟨1, _⟩ => refine Eq.trans ?_ hj; rfl

/-- The right operand's index at output entry (r, q) and contracted coordinate `j` is (q, j): its row is the output's
    column, its column the contracted coordinate. -/
theorem nt_rhsIdx (M K N : Nat) (r : Fin M) (q : Fin N) (j : Fin K) :
    (DotDims.transposedRhs M K N).rhsIdx (ix2 r q) ((contrEquiv1 (DotDims.transposedRhs M K N) K rfl rfl).symm j) = ix2 q j := by
  have hj := contrEquiv1_symm_val (DotDims.transposedRhs M K N) K rfl rfl j
  funext a
  apply Fin.ext
  match a with
  | ⟨0, _⟩ => rfl
  | ⟨1, _⟩ => refine Eq.trans ?_ hj; rfl

/-- The matrix unit's product against a transposed right operand into a zero accumulator, at one entry. -/
theorem matmul_nt_apply {φ₁ φ₂ : FTy} (M K N : Nat) (prec : Option ContractPrecision)
    (A : FVec Ideal ⟨2, ![M, K]⟩ φ₁) (B : FVec Ideal ⟨2, ![N, K]⟩ φ₂) (r : Fin M) (q : Fin N) :
    FloatOps.matmul (DotDims.transposedRhs M K N) prec A B (constant ⟨2, ![M, N]⟩ .f32 0x00000000#32) (ix2 r q)
      = ∑ j : Fin K, A (ix2 r j) * B (ix2 q j) := by
  rw [Ideal.matmul_constant_zero_apply, ← Equiv.sum_comp (contrEquiv1 (DotDims.transposedRhs M K N) K rfl rfl).symm]
  refine Finset.sum_congr rfl fun j _ => ?_
  rw [nt_lhsIdx, nt_rhsIdx]

/-- The host's `dot_general` against a transposed right operand, at one entry. -/
theorem dotGeneral_nt_apply {φ₁ φ₂ : FTy} (M K N : Nat) (prec : Option ContractPrecision) (sched : HostSchedule)
    (A : FVec Ideal ⟨2, ![M, K]⟩ φ₁) (B : FVec Ideal ⟨2, ![N, K]⟩ φ₂) (r : Fin M) (q : Fin N) :
    FloatOps.dotGeneral (DotDims.transposedRhs M K N) prec sched A B (ix2 r q) = ∑ j : Fin K, A (ix2 r j) * B (ix2 q j) := by
  rw [Ideal.dotGeneral_apply, ← Equiv.sum_comp (contrEquiv1 (DotDims.transposedRhs M K N) K rfl rfl).symm]
  refine Finset.sum_congr rfl fun j _ => ?_
  rw [nt_lhsIdx, nt_rhsIdx]

end Cert.LibDotNT

end
-- ==== Proof.KSim.lean ====
/-
  The second launch's body at one entry of its block.

  The body takes a block of 8192 query rows, the 64 prototypes and the row of the prototypes' clamped norms. It forms
  the products of the rows with the prototypes over the 256 features, divides entry (r, c) by the clamped Euclidean
  norm of row r times the clamped norm of prototype c, subtracts from each row its maximum, and subtracts from each
  shifted row the logarithm of the sum of its exponentials. Read at entry (r, c) this is the log-softmax, at class c,
  of the cosine similarities of row r with the prototypes: over the extended reals every change of number format is
  the identity, a product into a zero accumulator is the plain sum of products, a reduction along a row is the sum or
  the maximum over the row's coordinates, and a recast or a copy along an axis reads the entry it came from.
-/
import proofs.«421448_j35373350650479_2_alg».proof.Proof.Gen.KernelIdeal.Skeleton
import proofs.«421448_j35373350650479_2_alg».proof.Proof.Spec
import proofs.«421448_j35373350650479_2_alg».proof.Proof.LibDotNT
import Idealize.ShloMosaic.PureOps.Ideal.Laws
import Idealize.ShloMosaic.Lib.ValueIdx
import Idealize.ShloMosaic.Lib.Pipeline.Value

noncomputable section

open scoped BigOperators

namespace Cert.KSim

open Idealize.ShloMosaic Idealize.ShloMosaic.ValueIdx Cert.KernelIdeal Cert.KernelIdeal.Gen

/-- The product of the block's rows with the prototypes, contracted on the feature axis, at entry (r, c): the sum
    over the 256 features of row r's feature times prototype c's feature. -/
private theorem dot_entry {φ₁ φ₂ : FTy} (A : FVec Ideal S8192x256 φ₁) (B : FVec Ideal S64x256 φ₂)
    (r : Fin 8192) (c : Fin 64) :
    matmul dot_S8192x256_S64x256_S8192x64_1_1_0_0_n_n none A B (constant (F := Ideal) S8192x64 .f32 0x00000000#32) (ix2 r c)
      = ∑ d : Fin 256, A (ix2 r d) * B (ix2 c d) :=
  Cert.LibDotNT.matmul_nt_apply 8192 256 64 none A B r c

/-- A sum along the 256 features of a row: the row's entries added up. -/
private theorem rowsum256 (src : FVec Ideal S8192x256 .f32) (r : Fin 8192) :
    multiReduction (F := Ideal) .add [1] S8192 src 0x00000000#32 reduces_S8192x256_S8192 (.inl rfl) rfl (ix1 r)
      = ∑ k : Fin 256, src (ix2 r k) := by
  refine (Ideal.multiReduction_add_single src 0x00000000#32 reduces_S8192x256_S8192 (.inl rfl) rfl (ix1 r)).trans ?_
  refine Finset.sum_congr rfl fun k _ => congrArg src ?_
  funext a
  apply Fin.ext
  match a with
  | ⟨0, _⟩ => rfl
  | ⟨1, _⟩ => rfl

/-- A sum along the 64 classes of a row. -/
private theorem rowsum64 (src : FVec Ideal S8192x64 .f32) (r : Fin 8192) :
    multiReduction (F := Ideal) .add [1] S8192 src 0x00000000#32 reduces_S8192x64_S8192 (.inl rfl) rfl (ix1 r)
      = ∑ k : Fin 64, src (ix2 r k) := by
  refine (Ideal.multiReduction_add_single src 0x00000000#32 reduces_S8192x64_S8192 (.inl rfl) rfl (ix1 r)).trans ?_
  refine Finset.sum_congr rfl fun k _ => congrArg src ?_
  funext a
  apply Fin.ext
  match a with
  | ⟨0, _⟩ => rfl
  | ⟨1, _⟩ => rfl

/-- The maximum along the 64 classes of a row, started from minus infinity: the row maximum of the specification. -/
private theorem rowmax64 (src : FVec Ideal S8192x64 .f32) (r : Fin 8192) :
    multiReduction (F := Ideal) .maximumf [1] S8192 src 0xFF800000#32 reduces_S8192x64_S8192 (.inl rfl) rfl (ix1 r)
      = Cert.Spec.rowMax (fun k => src (ix2 r k)) := by
  refine (Ideal.multiReduction_maximumf_single src 0xFF800000#32 reduces_S8192x64_S8192 (.inl rfl) rfl (ix1 r)).trans ?_
  have hf : (src ∘ reduces_S8192x64_S8192.lift (ix1 r)) = fun k : Fin 64 => src (ix2 r k) := by
    funext k
    refine congrArg src ?_
    funext a
    apply Fin.ext
    match a with
    | ⟨0, _⟩ => rfl
    | ⟨1, _⟩ => rfl
  rw [hf]
  rfl

/-- A vector of 8192 entries recast as a column reads, at row r, entry r. -/
private theorem col_cast {α : Type} (v : S8192.Idx → α) (r : Fin 8192) (z : Fin 1) :
    shapeCast S8192x1 v shapeCasts_S8192_S8192x1 (ix2 r z) = v (ix1 r) := by
  refine shapeCast_apply v shapeCasts_S8192_S8192x1 (ix2 r z) (ix1 r) ?_
  rw [Shape.rowMajor_val_one, Shape.rowMajor_val_two]
  have hz := z.isLt
  show r.val = r.val * 1 + z.val
  omega

/-- A column copied along the 64 classes reads, at (r, c), the column's entry r. -/
private theorem col_bcast {α : Type} (w : S8192x1.Idx → α) (r : Fin 8192) (c : Fin 64) :
    broadcastTo S8192x64 w broadcasts_S8192x1_S8192x64 (ix2 r c) = w (ix2 r (0 : Fin 1)) := by
  refine broadcastTo_apply w broadcasts_S8192x1_S8192x64 (ix2 r c) (ix2 r (0 : Fin 1)) fun a => ?_
  match a with
  | ⟨0, _⟩ => rfl
  | ⟨1, _⟩ => rfl

/-- A row copied down the 8192 rows reads, at (r, c), the row's entry c. -/
private theorem row_bcast {α : Type} (w : S1x64.Idx → α) (r : Fin 8192) (c : Fin 64) :
    broadcastTo S8192x64 w broadcasts_S1x64_S8192x64 (ix2 r c) = w (ix2 (0 : Fin 1) c) := by
  refine broadcastTo_apply w broadcasts_S1x64_S8192x64 (ix2 r c) (ix2 (0 : Fin 1) c) fun a => ?_
  match a with
  | ⟨0, _⟩ => rfl
  | ⟨1, _⟩ => rfl

/-- A score matrix less each row's maximum, in the body's own operations. -/
private def shiftV (s : FVec Ideal S8192x64 .f32) : FVec Ideal S8192x64 .f32 :=
  subf s (broadcastTo S8192x64
    (shapeCast S8192x1
      (multiReduction (F := Ideal) .maximumf [1] S8192 s 0xFF800000#32 reduces_S8192x64_S8192 (.inl rfl) rfl)
      shapeCasts_S8192_S8192x1)
    broadcasts_S8192x1_S8192x64)

/-- At (r, c) it is the specification's shifted score of row r at class c. -/
private theorem shiftV_apply (s : FVec Ideal S8192x64 .f32) (r : Fin 8192) (c : Fin 64) :
    shiftV s (ix2 r c) = Cert.Spec.shifted (fun k => s (ix2 r k)) c := by
  unfold shiftV Cert.Spec.shifted
  refine (subf_apply _ _ _).trans ?_
  refine congrArg (fun t => s (ix2 r c) - t) ?_
  refine (col_bcast _ r c).trans ?_
  refine (col_cast _ r (0 : Fin 1)).trans ?_
  exact rowmax64 s r

/-- The log-softmax of every row of a score matrix, in the body's own operations. -/
private def lsmV (s : FVec Ideal S8192x64 .f32) : FVec Ideal S8192x64 .f32 :=
  subf (shiftV s) (broadcastTo S8192x64
    (log (shapeCast S8192x1
      (multiReduction (F := Ideal) .add [1] S8192 (exp (shiftV s)) 0x00000000#32 reduces_S8192x64_S8192 (.inl rfl) rfl)
      shapeCasts_S8192_S8192x1))
    broadcasts_S8192x1_S8192x64)

/-- At (r, c) it is the specification's log-softmax of row r at class c. -/
private theorem lsmV_apply (s : FVec Ideal S8192x64 .f32) (r : Fin 8192) (c : Fin 64) :
    lsmV s (ix2 r c) = Cert.Spec.logSoftmax (fun k => s (ix2 r k)) c := by
  unfold lsmV Cert.Spec.logSoftmax
  refine (subf_apply _ _ _).trans ?_
  refine congrArg₂ (fun a b => a - b) (shiftV_apply s r c) ?_
  refine (col_bcast _ r c).trans ?_
  refine congrArg Ideal.log ?_
  refine (col_cast _ r (0 : Fin 1)).trans ?_
  refine (rowsum64 _ r).trans ?_
  refine Finset.sum_congr rfl fun k _ => ?_
  exact congrArg Ideal.exp (shiftV_apply s r k)

/-- The matrix of cosine similarities over clamped norms, in the body's own operations: the products of the rows with
    the prototypes, over the rows' clamped norms (a column) times the prototypes' clamped norms (a row). -/
private def simsV (q : FVec Ideal S8192x256 .f32) (P : FVec Ideal S64x256 .f32) (pn : FVec Ideal S1x64 .f32) :
    FVec Ideal S8192x64 .f32 :=
  divf
    (matmul dot_S8192x256_S64x256_S8192x64_1_1_0_0_n_n none (truncf .bf16 q bitsLt_bf16_f32) (truncf .bf16 P bitsLt_bf16_f32)
      (constant S8192x64 .f32 0x00000000#32))
    (mulf
      (broadcastTo S8192x64
        (maximumf
          (sqrt (shapeCast S8192x1
            (multiReduction (F := Ideal) .add [1] S8192 (mulf q q) 0x00000000#32 reduces_S8192x256_S8192 (.inl rfl) rfl)
            shapeCasts_S8192_S8192x1))
          (broadcast S8192x1 (Scalar.ofBits .f32 0x322BCC77#32)))
        broadcasts_S8192x1_S8192x64)
      (broadcastTo S8192x64 pn broadcasts_S1x64_S8192x64))

/-- At (r, c) it is the specification's similarity of row r with prototype c. -/
private theorem simsV_apply (q : FVec Ideal S8192x256 .f32) (P : FVec Ideal S64x256 .f32) (pn : FVec Ideal S1x64 .f32)
    (r : Fin 8192) (c : Fin 64) :
    simsV q P pn (ix2 r c)
      = Cert.Spec.sims (fun d => q (ix2 r d)) (fun k d => P (ix2 k d)) (fun k => pn (ix2 (0 : Fin 1) k)) c := by
  unfold simsV Cert.Spec.sims Cert.Spec.cnorm
  refine (divf_apply _ _ _).trans ?_
  refine congrArg₂ Ideal.div ?_ ?_
  · exact dot_entry _ _ r c
  · refine (mulf_apply _ _ _).trans ?_
    refine congrArg₂ (fun a b => a * b) ?_ (row_bcast pn r c)
    refine (col_bcast _ r c).trans ?_
    refine (maximumf_apply _ _ _).trans ?_
    refine congrArg₂ max ?_ rfl
    refine congrArg Ideal.sqrt ?_
    refine (col_cast _ r (0 : Fin 1)).trans ?_
    exact rowsum256 _ r

/-- Entry (r, c) of what the body stores: the log-softmax, at class `c`, of the similarities of the block's query
    row `r` with the prototypes. -/
theorem pay_apply (x0 : Vec Ideal S8192x256 .f32) (x1 : Vec Ideal S64x256 .f32) (x2 : Vec Ideal S1x64 .f32)
    (r : Fin 8192) (c : Fin 64) :
    k1_pay1 (F := Ideal) x0 x1 x2 (ix2 r c)
      = Cert.Spec.rowOut (fun d => x0 (ix2 r d)) (fun k d => x1 (ix2 k d)) (fun k => x2 (ix2 (0 : Fin 1) k)) c := by
  have hpay : k1_pay1 (F := Ideal) x0 x1 x2
      = lsmV (simsV (shapeCast S8192x256 x0 shapeCasts_S8192x256_S8192x256)
          (shapeCast S64x256 x1 shapeCasts_S64x256_S64x256) (shapeCast S1x64 x2 shapeCasts_S1x64_S1x64)) := rfl
  rw [hpay, shapeCast_self x0, shapeCast_self x1, shapeCast_self x2]
  unfold Cert.Spec.rowOut
  refine (lsmV_apply _ r c).trans ?_
  refine congrArg (fun s => Cert.Spec.logSoftmax s c) ?_
  funext k
  exact simsV_apply x0 x1 x2 r k

end Cert.KSim

end
-- ==== Proof.KSimArr.lean ====
/-
  The second launch's result array after the run: every grid point writes its tile of 8192 query rows, the 16 tiles
  fill the 131072 rows, so the array is the row-by-row log-softmax of the similarities.
-/
import proofs.«421448_j35373350650479_2_alg».proof.Proof.Gen.KernelIdeal.Frame
import proofs.«421448_j35373350650479_2_alg».proof.Proof.KSim
import proofs.«421448_j35373350650479_2_alg».proof.Proof.Arrays
import Idealize.ShloMosaic.Lib.Pipeline.Value

set_option maxRecDepth 16384

noncomputable section

open scoped BigOperators

namespace Cert.KSimArr

open Idealize.ShloMosaic Idealize.ShloMosaic.TcCoe Idealize.ShloMosaic.ValueIdx Idealize.SL.Sem Cert.KernelIdeal Cert.KernelIdeal.Gen

/-- The zero offsets of a whole-block rectangle, as the constant function. -/
private theorem zero_off : (![0, 0] : Fin 2 → Nat) = fun _ => 0 := funext fun a => by fin_cases a <;> rfl

/-- Where each window's block sits at grid point `t`: the query tile and the output tile are tile `t` along the rows,
    the prototypes and the norm row are the whole arrays. -/
private theorem tile_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- One entry of a tile's result is the specification's entry of the array, when the tile's query rows are the
    array's rows at the same place and the prototypes and norms are the whole arrays. -/
private theorem tile_entry (x0 : Vec Ideal S8192x256 .f32) (x1 : Vec Ideal S64x256 .f32) (x2 : Vec Ideal S1x64 .f32)
    (q : S131072x256.Idx → EReal) (P : S64x256.Idx → EReal) (pn : S1x64.Idx → EReal)
    (y : S8192x64.Idx) (i : S131072x64.Idx)
    (h0 : ∀ d : Fin 256, x0 (ix2 (y 0) d) = q (ix2 (i 0) d))
    (h1 : ∀ (k : Fin 64) (d : Fin 256), x1 (ix2 k d) = P (ix2 k d))
    (h2 : ∀ k : Fin 64, x2 (ix2 (0 : Fin 1) k) = pn (ix2 (0 : Fin 1) k))
    (hi : i 1 = y 1) :
    k1_pay1 (F := Ideal) x0 x1 x2 y = Cert.Arrays.simOut q P pn i := by
  obtain ⟨r, cc, rfl⟩ : ∃ (r : Fin 8192) (cc : Fin 64), y = ix2 r cc := ⟨y 0, y 1, eq_ix2 y⟩
  refine (Cert.KSim.pay_apply x0 x1 x2 r cc).trans ?_
  show _ = Cert.Spec.rowOut (fun d => q (ix2 (i 0) d)) (fun k d => P (ix2 k d)) (fun k => pn (ix2 (0 : Fin 1) k)) (i 1)
  have e0 : (fun d : Fin 256 => x0 (ix2 r d)) = fun d => q (ix2 (i 0) d) := funext h0
  have e1 : (fun (k : Fin 64) (d : Fin 256) => x1 (ix2 k d)) = fun k d => P (ix2 k d) := funext fun k => funext fun d => h1 k d
  have e2 : (fun k : Fin 64 => x2 (ix2 (0 : Fin 1) k)) = fun k => pn (ix2 (0 : Fin 1) k) := funext h2
  rw [e0, e1, e2, hi]

/-- What grid point `t` writes back is tile `t` of the specification's array. -/
private theorem tile_written (V : (c : Dev nD) → (b : Ref sig .tc) → Buf (Elt Ideal) ((c : Thread nD τ).loc b)) (c : Dev nD)
    (t : Fin cfg1.N) :
    (dat1 (F := Ideal) V c).flushed 3 t
      = ((cfg1.win 3).blk t).view.read (Elt Ideal) (Cert.Arrays.simOut (V c main_v12) (V c main_v7) (V c main_v11)) := by
  show (cfg1.win 3).cut (grid1.coords t) ((dat1 V c).after 3 t) = _
  rw [after1_3]
  unfold out1_3
  rw [View.canon_unit_zero zero_off]
  simp only [View.ld_unit_zero (S := S8192x256) zero_off, View.ld_unit_zero (S := S64x256) zero_off,
    View.ld_unit_zero (S := S1x64) zero_off]
  obtain ⟨e00, e01, e10, e11, e20, e21, e30, e31⟩ := tile_index t
  funext y
  show k1_pay1 (F := Ideal) (iblk1 V c 0 t) (iblk1 V c 1 t) (iblk1 V c 2 t) y
    = Cert.Arrays.simOut (V c main_v12) (V c main_v7) (V c main_v11) (((cfg1.win 3).blk t).view.emb y)
  refine tile_entry (iblk1 V c 0 t) (iblk1 V c 1 t) (iblk1 V c 2 t) _ _ _ y _ (fun d => ?_) (fun k d => ?_) (fun k => ?_) ?_
  · -- the query tile's row is the array's row 8192 t + (row inside the tile)
    show V c main_v12 (((cfg1.win 0).blk t).view.emb (ix2 (y 0) d))
      = V c main_v12 (ix2 (((cfg1.win 3).blk t).view.emb y 0) d)
    refine congrArg (V c main_v12) (funext fun a => Fin.ext ?_)
    match a with
    | ⟨0, _⟩ =>
      show win1_0.index t (0 : Fin 2) * 8192 + 1 * (y 0).val = win1_3.index t (0 : Fin 2) * 8192 + 1 * (y 0).val
      omega
    | ⟨1, _⟩ =>
      show win1_0.index t (1 : Fin 2) * 256 + 1 * d.val = d.val
      omega
  · -- the prototypes' window is the whole array
    show V c main_v7 (((cfg1.win 1).blk t).view.emb (ix2 k d)) = V c main_v7 (ix2 k d)
    refine congrArg (V c main_v7) (funext fun a => Fin.ext ?_)
    match a with
    | ⟨0, _⟩ =>
      show win1_1.index t (0 : Fin 2) * 64 + 1 * k.val = k.val
      omega
    | ⟨1, _⟩ =>
      show win1_1.index t (1 : Fin 2) * 256 + 1 * d.val = d.val
      omega
  · -- so is the norm row's
    show V c main_v11 (((cfg1.win 2).blk t).view.emb (ix2 (0 : Fin 1) k)) = V c main_v11 (ix2 (0 : Fin 1) k)
    refine congrArg (V c main_v11) (funext fun a => Fin.ext ?_)
    match a with
    | ⟨0, _⟩ =>
      show win1_2.index t (0 : Fin 2) * 1 + 1 * 0 = 0
      omega
    | ⟨1, _⟩ =>
      show win1_2.index t (1 : Fin 2) * 64 + 1 * k.val = k.val
      omega
  · -- the output tile spans all 64 columns
    refine Fin.ext ?_
    show win1_3.index t (1 : Fin 2) * 64 + 1 * (y 1).val = (y 1).val
    omega

/-- An index of the array is in grid point `t`'s tile iff each coordinate is in the tile's range on its axis. -/
private theorem mem_tile (t : Fin cfg1.N) (i : S131072x64.Idx) :
    i ∈ ((cfg1.win 3).blk t).view.set
      ↔ ∀ a : Fin 2, win1_3.index t a * S8192x64.size a ≤ (i a).val
          ∧ (i a).val < win1_3.index t a * S8192x64.size a + S8192x64.size a := by
  show i ∈ ((View.whole main_v13).slice (win1_3.rect t)).set ↔ _
  rw [View.set_slice_whole, Rect.mem_set_unit]
  exact Iff.rfl

/-- Every index of the array is in some tile: row `n` is in tile `n / 8192`, and a tile spans all 64 columns. -/
private theorem covered (i : S131072x64.Idx) :
    ∃ t : Fin cfg1.N, (cfg1.win 3).flush t = true ∧ i ∈ ((cfg1.win 3).blk t).view.set := by
  have hi0 : (i 0).val < 131072 := (i 0).isLt
  have hi1 : (i 1).val < 64 := (i 1).isLt
  have hlt : (i 0).val / 8192 < grid1.N := by rw [N_1]; omega
  obtain ⟨t, ht⟩ : ∃ t : Fin cfg1.N, t.val = (i 0).val / 8192 := ⟨⟨(i 0).val / 8192, hlt⟩, rfl⟩
  obtain ⟨-, -, -, -, -, -, e30, e31⟩ := tile_index t
  refine ⟨t, flush1_3 t, ?_⟩
  rw [mem_tile]
  intro a
  match a with
  | ⟨0, _⟩ =>
    show win1_3.index t (0 : Fin 2) * 8192 ≤ (i 0).val ∧ (i 0).val < win1_3.index t (0 : Fin 2) * 8192 + 8192
    omega
  | ⟨1, _⟩ =>
    show win1_3.index t (1 : Fin 2) * 64 ≤ (i 1).val ∧ (i 1).val < win1_3.index t (1 : Fin 2) * 64 + 64
    omega

/-- After the second launch its result array holds, row by row, the log-softmax of the query rows' similarities:
    `Cert.Arrays.simOut` of the three arrays the launch reads, as the launch finds them (`V`). -/
theorem arr_eq (V : (c : Dev nD) → (b : Ref sig .tc) → Buf (Elt Ideal) ((c : Thread nD τ).loc b)) (c : Dev nD) :
    (dat1 (F := Ideal) V c).arrAt 3 cfg1.N
      = Cert.Arrays.simOut (V c main_v12) (V c main_v7) (V c main_v11) := by
  exact (dat1 V c).arrAt_eq_of_cover 3 (Cert.Arrays.simOut (V c main_v12) (V c main_v7) (V c main_v11))
    (fun t _ => tile_written V c t) covered

end Cert.KSimArr

end
-- ==== Proof.Mid.lean ====
/-
  Between the two launches: the host adds the two cores' partial class sums and counts, divides, takes the clamped
  norms of the prototypes and drops the queries' unit axis. Read at an entry over the extended reals, these give the
  specification's prototypes, their norms and the query rows.

  The 32 tiles of 8192 rows, 16 per core, enumerate the 262144 support rows once each, so the double sum over a core's
  tiles and a tile's rows, added over the two cores, is the sum over all rows.
-/
import Idealize.ShloMosaic.PureOps.Ideal.Laws
import Idealize.ShloMosaic.Lib.ValueIdx
import Idealize.ShloMosaic.Lib.IdealHost
import Idealize.ShloMosaic.Lib.Pipeline.Value
import Mathlib.Algebra.BigOperators.Fin
import proofs.«421448_j35373350650479_2_alg».proof.Proof.Arrays

noncomputable section

open scoped BigOperators

namespace Cert.Mid

open Idealize.ShloMosaic Idealize.ShloMosaic.ValueIdx Cert.Arrays

/-! ## The tiles enumerate the support rows -/

/-- (core, tile, offset) ↦ row number: a bijection onto the 262144 rows. -/
def tileEquiv : (Fin 2 × Fin 16) × Fin 8192 ≃ Fin 262144 :=
  ((finProdFinEquiv (m := 2) (n := 16)).prodCongr (Equiv.refl (Fin 8192))).trans
    ((finProdFinEquiv (m := 2 * 16) (n := 8192)).trans (finCongr (by norm_num)))

theorem tileEquiv_apply (core : Fin 2) (i : Fin 16) (j : Fin 8192) : tileEquiv ((core, i), j) = rowOf core i j := by
  apply Fin.ext
  simp only [tileEquiv, Equiv.trans_apply, Equiv.prodCongr_apply, Prod.map_apply, Equiv.refl_apply, finCongr_apply,
    Fin.val_cast, finProdFinEquiv_apply_val, rowOf_val]
  omega

/-- Summing over the cores, a core's tiles and a tile's rows is summing over all support rows. -/
theorem sum_tiles {M : Type*} [AddCommMonoid M] (f : Fin 262144 → M) :
    ∑ core : Fin 2, ∑ i : Fin 16, ∑ j : Fin 8192, f (rowOf core i j) = ∑ s, f s := by
  rw [← Equiv.sum_comp tileEquiv f, Fintype.sum_prod_type, Fintype.sum_prod_type]
  refine Finset.sum_congr rfl fun core _ => Finset.sum_congr rfl fun i _ => Finset.sum_congr rfl fun j _ => ?_
  rw [tileEquiv_apply]

/-! ## The host operations between the launches, read at an entry -/

section HostOps

variable (hu : 0 < (⟨0, ![]⟩ : Shape).numel)

/-- The host's sum over the core axis of the [2, 64, 256] partial sums, from zero: the two cores' entries added. -/
theorem reduce_cores_apply (h' : (⟨3, ![2, 64, 256]⟩ : Shape).ReducesTo [0] ⟨2, ![64, 256]⟩)
    (A : FVec Ideal ⟨3, ![2, 64, 256]⟩ .f32) (k : Fin 64) (d : Fin 256) :
    Host.reduceAdd A (constant (F := Ideal) ⟨0, ![]⟩ .f32 0x00000000#32) h' hu (ix2 k d)
      = A (ix3 (0 : Fin 2) k d) + A (ix3 (1 : Fin 2) k d) := by
  rw [hostReduceAdd_apply, Ideal.hostReduceAdd_single h' (by decide)]
  show Ideal.ofBits .f32 0x00000000#32 + ∑ c : Fin 2, _ = _
  rw [Ideal.ofBits_zero_f32, zero_add, Fin.sum_univ_two]
  refine congrArg₂ (· + ·) (congrArg A ?_) (congrArg A ?_) <;>
    exact funext fun a => Fin.ext (by match a with | ⟨0, _⟩ => rfl | ⟨1, _⟩ => rfl | ⟨2, _⟩ => rfl)

/-- The same for the [2, 64, 1] partial counts. -/
theorem reduce_cores_col_apply (h' : (⟨3, ![2, 64, 1]⟩ : Shape).ReducesTo [0] ⟨2, ![64, 1]⟩)
    (A : FVec Ideal ⟨3, ![2, 64, 1]⟩ .f32) (k : Fin 64) :
    Host.reduceAdd A (constant (F := Ideal) ⟨0, ![]⟩ .f32 0x00000000#32) h' hu (ix2 k (0 : Fin 1))
      = A (ix3 (0 : Fin 2) k (0 : Fin 1)) + A (ix3 (1 : Fin 2) k (0 : Fin 1)) := by
  rw [hostReduceAdd_apply, Ideal.hostReduceAdd_single h' (by decide)]
  show Ideal.ofBits .f32 0x00000000#32 + ∑ c : Fin 2, _ = _
  rw [Ideal.ofBits_zero_f32, zero_add, Fin.sum_univ_two]
  refine congrArg₂ (· + ·) (congrArg A ?_) (congrArg A ?_) <;>
    exact funext fun a => Fin.ext (by match a with | ⟨0, _⟩ => rfl | ⟨1, _⟩ => rfl | ⟨2, _⟩ => rfl)

/-- The host's sum of squares along a prototype, from zero. -/
theorem reduce_sq_apply (h' : (⟨2, ![64, 256]⟩ : Shape).ReducesTo [1] ⟨1, ![64]⟩)
    (P : FVec Ideal ⟨2, ![64, 256]⟩ .f32) (k : Fin 64) :
    Host.reduceAdd (mulf P P) (constant (F := Ideal) ⟨0, ![]⟩ .f32 0x00000000#32) h' hu (ix1 k)
      = ∑ d : Fin 256, P (ix2 k d) * P (ix2 k d) := by
  rw [hostReduceAdd_apply, Ideal.hostReduceAdd_single h' (by decide)]
  show Ideal.ofBits .f32 0x00000000#32 + ∑ d : Fin 256, _ = _
  rw [Ideal.ofBits_zero_f32, zero_add]
  refine Finset.sum_congr rfl fun d _ => ?_
  have e : (by decide : (⟨2, ![64, 256]⟩ : Shape).Reduces [1] ⟨1, ![64]⟩).lift (ix1 k) d = ix2 k d :=
    funext fun a => Fin.ext (by match a with | ⟨0, _⟩ => rfl | ⟨1, _⟩ => rfl)
  show P _ * P _ = _
  rw [e]

end HostOps

/-! ## Layout: the labels as one row, the queries without their unit axis, the norms as one row -/

/-- The 262144 labels laid out as one row: entry (0, s) is label `s`. -/
theorem labels_row_apply {α : Type} (hsc : (⟨1, ![262144]⟩ : Shape).ShapeCasts ⟨2, ![1, 262144]⟩)
    (lab : (⟨1, ![262144]⟩ : Shape).Idx → α) (s : Fin 262144) :
    shapeCast ⟨2, ![1, 262144]⟩ lab hsc (ix2 (0 : Fin 1) s) = lab (ix1 s) :=
  shapeCast_apply lab hsc _ _ (by rw [Shape.rowMajor_val_one, Shape.rowMajor_val_two]; show s.val = 0 * 262144 + s.val; omega)

/-- The queries [131072, 1, 256] with the unit axis dropped: entry (n, d) is entry (n, 0, d). -/
theorem queries_apply {α : Type} (hsc : (⟨3, ![131072, 1, 256]⟩ : Shape).ShapeCasts ⟨2, ![131072, 256]⟩)
    (q : (⟨3, ![131072, 1, 256]⟩ : Shape).Idx → α) (n : Fin 131072) (d : Fin 256) :
    shapeCast ⟨2, ![131072, 256]⟩ q hsc (ix2 n d) = q (ix3 n (0 : Fin 1) d) :=
  shapeCast_apply q hsc _ _ (by
    rw [Shape.rowMajor_val_three, Shape.rowMajor_val_two]
    show (n.val * 1 + 0) * 256 + d.val = n.val * 256 + d.val; omega)

/-- A vector of 64 laid out as one row: entry (0, k) is entry `k`. -/
theorem row64_apply {α : Type} (hsc : (⟨1, ![64]⟩ : Shape).ShapeCasts ⟨2, ![1, 64]⟩)
    (v : (⟨1, ![64]⟩ : Shape).Idx → α) (k : Fin 64) :
    shapeCast ⟨2, ![1, 64]⟩ v hsc (ix2 (0 : Fin 1) k) = v (ix1 k) :=
  shapeCast_apply v hsc _ _ (by rw [Shape.rowMajor_val_one, Shape.rowMajor_val_two]; show k.val = 0 * 64 + k.val; omega)

/-! ## The prototypes and their norms -/

section Proto

variable (hu : 0 < (⟨0, ![]⟩ : Shape).numel)

/-- The two cores' partial class sums add up to the class sum over all support rows. -/
theorem partSum_add (x : (⟨2, ![262144, 256]⟩ : Shape).Idx → EReal) (lab : (⟨2, ![1, 262144]⟩ : Shape).Idx → BitVec 32)
    (k : Fin 64) (d : Fin 256) :
    partSum x lab 0 k d + partSum x lab 1 k d
      = Cert.Spec.classSum (fun s d => x (ix2 s d)) (fun s => lab (ix2 (0 : Fin 1) s)) k d := by
  unfold Cert.Spec.classSum
  rw [← sum_tiles, Fin.sum_univ_two]
  rfl

/-- The two cores' partial member counts add up to the class's member count. -/
theorem partCount_add (lab : (⟨2, ![1, 262144]⟩ : Shape).Idx → BitVec 32) (k : Fin 64) :
    partCount lab 0 k + partCount lab 1 k = Cert.Spec.classCount (fun s => lab (ix2 (0 : Fin 1) s)) k := by
  unfold Cert.Spec.classCount
  rw [← sum_tiles, Fin.sum_univ_two]
  rfl

/-- The prototypes as the host computes them from the launch's two results — the cores' sums added, divided by the
    larger of the added counts and one — are the specification's prototypes of the support set and its labels. -/
theorem proto_apply
    (h2 : (⟨3, ![2, 64, 256]⟩ : Shape).ReducesTo [0] ⟨2, ![64, 256]⟩)
    (h3 : (⟨3, ![2, 64, 1]⟩ : Shape).ReducesTo [0] ⟨2, ![64, 1]⟩)
    (hb1 : (⟨0, ![]⟩ : Shape).BroadcastsInDim ⟨2, ![64, 1]⟩ (![] : Fin 0 → Fin 2))
    (hb2 : (⟨2, ![64, 1]⟩ : Shape).BroadcastsInDim ⟨2, ![64, 256]⟩ (![0, 1] : Fin 2 → Fin 2))
    (hsc : (⟨1, ![262144]⟩ : Shape).ShapeCasts ⟨2, ![1, 262144]⟩)
    (x : (⟨2, ![262144, 256]⟩ : Shape).Idx → EReal) (lab : (⟨1, ![262144]⟩ : Shape).Idx → BitVec 32)
    (k : Fin 64) (d : Fin 256) :
    Host.divf (φ := .f32)
        (Host.reduceAdd (partSums x (shapeCast ⟨2, ![1, 262144]⟩ lab hsc)) (constant (F := Ideal) ⟨0, ![]⟩ .f32 0x00000000#32) h2 hu)
        (broadcastInDim ⟨2, ![64, 256]⟩ ![0, 1] hb2
          (maximumf (Host.reduceAdd (partCounts (shapeCast ⟨2, ![1, 262144]⟩ lab hsc)) (constant (F := Ideal) ⟨0, ![]⟩ .f32 0x00000000#32) h3 hu)
            (broadcastInDim ⟨2, ![64, 1]⟩ ![] hb1 (constant (F := Ideal) ⟨0, ![]⟩ .f32 0x3F800000#32))))
        (ix2 k d)
      = Cert.Spec.proto (fun s d => x (ix2 s d)) (fun s => lab (ix1 s)) k d := by
  have hlab : (fun s : Fin 262144 => shapeCast ⟨2, ![1, 262144]⟩ lab hsc (ix2 (0 : Fin 1) s)) = fun s => lab (ix1 s) :=
    funext fun s => labels_row_apply hsc lab s
  rw [hostDivf_apply, reduce_cores_apply hu h2]
  rw [broadcastInDim_apply ![0, 1] hb2 _ (ix2 k d) (ix2 k (0 : Fin 1))
    (fun a => by match a with | ⟨0, _⟩ => rfl | ⟨1, _⟩ => rfl)]
  rw [maximumf_apply, reduce_cores_col_apply hu h3, broadcastInDim_scalar_apply]
  show Ideal.div (partSum x _ 0 k d + partSum x _ 1 k d) (max (partCount _ 0 k + partCount _ 1 k) (Ideal.ofBits .f32 0x3F800000#32)) = _
  rw [partSum_add, partCount_add, hlab, Ideal.ofBits_one_f32]
  rfl

/-- The clamped norms as the host computes them from the prototypes, laid out as one row: entry (0, k) is the clamped
    norm of prototype `k`. -/
theorem pnorm_apply
    (h1 : (⟨2, ![64, 256]⟩ : Shape).ReducesTo [1] ⟨1, ![64]⟩)
    (hb : (⟨0, ![]⟩ : Shape).BroadcastsInDim ⟨1, ![64]⟩ (![] : Fin 0 → Fin 1))
    (hsc : (⟨1, ![64]⟩ : Shape).ShapeCasts ⟨2, ![1, 64]⟩)
    (P : FVec Ideal ⟨2, ![64, 256]⟩ .f32) (k : Fin 64) :
    shapeCast ⟨2, ![1, 64]⟩
        (maximumf (Host.sqrt (Host.reduceAdd (mulf P P) (constant (F := Ideal) ⟨0, ![]⟩ .f32 0x00000000#32) h1 hu))
          (broadcastInDim ⟨1, ![64]⟩ ![] hb (constant (F := Ideal) ⟨0, ![]⟩ .f32 0x322BCC77#32))) hsc (ix2 (0 : Fin 1) k)
      = Cert.Spec.cnorm (fun d => P (ix2 k d)) := by
  rw [row64_apply, maximumf_apply, broadcastInDim_scalar_apply]
  show max (Ideal.sqrt (Host.reduceAdd (mulf P P) _ h1 hu (ix1 k))) (Ideal.ofBits .f32 0x322BCC77#32) = _
  rw [reduce_sq_apply hu h1]
  rfl

end Proto

end Cert.Mid

end
-- ==== Proof.LibTRef.lean ====
/-
  A value carried to a typed reference's buffer type and back is the value. A host operation of an inlined function is
  stated through typed references: its function takes the operands from their buffers' types to the values' types and
  returns the result the other way, each a transport along the reference's type equation. Composed, the two transports
  cancel, whatever the signature and the reference.
-/
import Idealize.ShloMosaic.Lib.StableHlo

noncomputable section

namespace Cert.LibTRef

open Idealize.ShloMosaic Idealize.ShloMosaic.StableHlo

/-- The round trip through a typed reference's buffer type is the identity. -/
theorem ofBuf_toBuf {sig : RefSig} {Val : EltTy → Type} {T : BufTy} (x : TRef sig T) (v : T.Contents Val) :
    x.ofBuf (x.toBuf v) = v := by
  obtain ⟨r, h, d, u⟩ := x
  subst h
  rfl

end Cert.LibTRef

end
-- ==== Proof.Between.lean ====
/-
  The kernel's result as the specification.

  The second launch leaves in the result array, row by row, the log-softmax of each query row's similarities with the
  prototypes it was handed. Those prototypes are the host's quotient of the first launch's class sums (the two cores'
  partial sums added) by the larger of the member counts and one; the norms it was handed are the prototypes' clamped
  norms; the queries it was handed are the query argument without its unit axis. Read at an entry these are the
  specification's prototypes, norms and query rows, so the result array is the specification's result.
-/
import proofs.«421448_j35373350650479_2_alg».proof.Proof.Gen.KernelIdeal.Frame
import proofs.«421448_j35373350650479_2_alg».proof.Proof.KProto
import proofs.«421448_j35373350650479_2_alg».proof.Proof.KSimArr
import proofs.«421448_j35373350650479_2_alg».proof.Proof.Mid
import proofs.«421448_j35373350650479_2_alg».proof.Proof.LibTRef
import Idealize.ShloMosaic.Lib.StableHlo.Run

set_option maxRecDepth 16384

noncomputable section

open scoped BigOperators

namespace Cert.Between

open Idealize.ShloMosaic Idealize.ShloMosaic.TcCoe Idealize.ShloMosaic.ValueIdx Idealize.SL.Sem
open Idealize.ShloMosaic.StableHlo Cert.KernelIdeal Cert.KernelIdeal.Gen

variable (m : (ℓ : Loc nD τ sig) → Buf (Elt Ideal) ℓ) (ρ : Dev nD → PrngReg)

/-- The labels as the first launch finds them: the label argument laid out as one row. -/
abbrev labRow (c : Dev nD) : Vec Ideal S1x262144 .i32 :=
  shapeCast S1x262144 (m ((c : Thread nD τ).loc main_arg1)) shapeCasts_S262144_S1x262144

/-- The prototypes as the host computes them from the first launch's two results. -/
def protoArr (c : Dev nD) : FVec Ideal S64x256 .f32 :=
  Host.divf
    (Host.reduceAdd (Cert.Arrays.partSums (m ((c : Thread nD τ).loc main_arg0)) (labRow m c)) (constant (F := Ideal) S_ .f32 0x00000000#32)
      reducesTo_S2x64x256_S64x256_d0 h_S_)
    (broadcastInDim S64x256 ![0, 1] bcast_S64x1_S64x256_0_1
      (maximumf
        (Host.reduceAdd (Cert.Arrays.partCounts (labRow m c)) (constant (F := Ideal) S_ .f32 0x00000000#32) reducesTo_S2x64x1_S64x1_d0 h_S_)
        (broadcastInDim S64x1 ![] bcast_S_S64x1 (constant (F := Ideal) S_ .f32 0x3F800000#32))))

/-- The prototypes' clamped norms as the host computes them, laid out as one row. -/
def pnormRow (c : Dev nD) : FVec Ideal S1x64 .f32 :=
  shapeCast S1x64
    (maximumf
      (Host.sqrt (Host.reduceAdd (mulf (protoArr m c) (protoArr m c)) (constant (F := Ideal) S_ .f32 0x00000000#32) reducesTo_S64x256_S64_d1 h_S_))
      (broadcastInDim S64 ![] bcast_S_S64 (constant (F := Ideal) S_ .f32 0x322BCC77#32)))
    shapeCasts_S64_S1x64

/-! ## What the first launch finds and leaves -/

theorem arg0_entry (c : Dev nD) : V1 m ρ c main_arg0 = m ((c : Thread nD τ).loc main_arg0) := by
  show StableHlo.after hostOps0 (W0 m ρ c) (Proc.devRef .tc main_arg0) = _
  after_results <;> rfl

theorem v0_entry (c : Dev nD) : V1 m ρ c main_v0 = labRow m c := by
  show StableHlo.after hostOps0 (W0 m ρ c) (Proc.devRef .tc main_v0) = _
  after_results <;> rfl

theorem sums_exit (c : Dev nD) :
    W2 m ρ c (Proc.devRef .tc main_v1_0) = Cert.Arrays.partSums (m ((c : Thread nD τ).loc main_arg0)) (labRow m c) :=
  (W2_arr m ρ c 2).trans ((Cert.KProto.arr2_eq (V1 m ρ) c).trans (by rw [arg0_entry, v0_entry]))

theorem counts_exit (c : Dev nD) :
    W2 m ρ c (Proc.devRef .tc main_v1_1) = Cert.Arrays.partCounts (labRow m c) :=
  (W2_arr m ρ c 3).trans ((Cert.KProto.arr3_eq (V1 m ρ) c).trans (by rw [v0_entry]))

/-! ## What the second launch finds -/

theorem v7_entry (c : Dev nD) : V5 m ρ c main_v7 = protoArr m c := by
  show StableHlo.after hostOps1_2 (W4 m ρ c) (Proc.devRef .tc main_v7) = _
  after_results
  rw [sums_exit, counts_exit]
  rfl

theorem v11_entry (c : Dev nD) : V5 m ρ c main_v11 = pnormRow m c := by
  show StableHlo.after hostOps1_2 (W4 m ρ c) (Proc.devRef .tc main_v11) = _
  after_results
  simp only [Cert.LibTRef.ofBuf_toBuf]
  rw [sums_exit, counts_exit]
  rfl

theorem v12_entry (c : Dev nD) :
    V5 m ρ c main_v12 = shapeCast S131072x256 (m ((c : Thread nD τ).loc main_arg2)) shapeCasts_S131072x1x256_S131072x256 := by
  show StableHlo.after hostOps1_2 (W4 m ρ c) (Proc.devRef .tc main_v12) = _
  after_results
  have e : W2 m ρ c (Proc.devRef .tc main_arg2) = m ((c : Thread nD τ).loc main_arg2) := by
    refine (W2_of_ne m ρ c main_arg2 (by decide)).trans ?_
    show StableHlo.after hostOps0 (W0 m ρ c) (Proc.devRef .tc main_arg2) = _
    after_results <;> rfl
  rw [e]
  rfl

/-! ## The result -/

/-- The prototypes the host computes are the specification's. -/
theorem protoArr_apply (c : Dev nD) (k : Fin 64) (d : Fin 256) :
    protoArr m c (ix2 k d)
      = Cert.Spec.proto (fun s d => m ((c : Thread nD τ).loc main_arg0) (ix2 s d))
          (fun s => m ((c : Thread nD τ).loc main_arg1) (ix1 s)) k d :=
  Cert.Mid.proto_apply h_S_ reducesTo_S2x64x256_S64x256_d0 reducesTo_S2x64x1_S64x1_d0 bcast_S_S64x1 bcast_S64x1_S64x256_0_1
    shapeCasts_S262144_S1x262144 (m ((c : Thread nD τ).loc main_arg0)) (m ((c : Thread nD τ).loc main_arg1)) k d

/-- The norm row the host computes holds the specification's clamped norms of those prototypes. -/
theorem pnormRow_apply (c : Dev nD) (k : Fin 64) :
    pnormRow m c (ix2 (0 : Fin 1) k)
      = Cert.Spec.cnorm (Cert.Spec.proto (fun s d => m ((c : Thread nD τ).loc main_arg0) (ix2 s d))
          (fun s => m ((c : Thread nD τ).loc main_arg1) (ix1 s)) k) := by
  refine (Cert.Mid.pnorm_apply h_S_ reducesTo_S64x256_S64_d1 bcast_S_S64 shapeCasts_S64_S1x64 (protoArr m c) k).trans ?_
  exact congrArg Cert.Spec.cnorm (funext fun d => protoArr_apply m c k d)

/-- After the run the result buffer holds the specification's result of the three arguments. -/
theorem kernel_value (c : Dev nD) :
    W6 m ρ c (Proc.devRef .tc main_v13)
      = fun a => Cert.Spec.result (fun s d => m ((c : Thread nD τ).loc main_arg0) (ix2 s d))
          (fun s => m ((c : Thread nD τ).loc main_arg1) (ix1 s))
          (fun n d => m ((c : Thread nD τ).loc main_arg2) (ix3 n (0 : Fin 1) d)) (a 0) (a 1) := by
  refine (W6_arr m ρ c 3).trans ((Cert.KSimArr.arr_eq (V5 m ρ) c).trans ?_)
  rw [v12_entry, v7_entry, v11_entry]
  funext a
  unfold Cert.Arrays.simOut Cert.Spec.result
  have hq : (fun d : Fin 256 => shapeCast S131072x256 (m ((c : Thread nD τ).loc main_arg2)) shapeCasts_S131072x1x256_S131072x256 (ix2 (a 0) d))
      = fun d => m ((c : Thread nD τ).loc main_arg2) (ix3 (a 0) (0 : Fin 1) d) :=
    funext fun d => Cert.Mid.queries_apply shapeCasts_S131072x1x256_S131072x256 _ (a 0) d
  have hP : (fun (k : Fin 64) (d : Fin 256) => protoArr m c (ix2 k d))
      = Cert.Spec.proto (fun s d => m ((c : Thread nD τ).loc main_arg0) (ix2 s d))
          (fun s => m ((c : Thread nD τ).loc main_arg1) (ix1 s)) :=
    funext fun k => funext fun d => protoArr_apply m c k d
  have hn : (fun k : Fin 64 => pnormRow m c (ix2 (0 : Fin 1) k))
      = fun k => Cert.Spec.cnorm (Cert.Spec.proto (fun s d => m ((c : Thread nD τ).loc main_arg0) (ix2 s d))
          (fun s => m ((c : Thread nD τ).loc main_arg1) (ix1 s)) k) :=
    funext fun k => pnormRow_apply m c k
  show Cert.Spec.rowOut _ _ _ _ = _
  rw [hq, hP, hn]

end Cert.Between

end
-- ==== Proof.LibScatterRows.lean ====
/-
  The host's accumulating scatter of ROWS, read over the extended reals.

  The scatter indices are a column of row numbers, one per update row; update row `e` is added to operand row
  `idx e` (read as a signed integer; a row number outside the operand drops the update). The scatter therefore acts
  on every column by itself: entry (n, c) of the result is entry (n, c) of the operand plus the sum of the entries
  (e, c) of the updates over the rows `e` whose index is `n`. Consequently, scattering the rows of two arrays set
  side by side and then cutting the result back into the two column ranges is the same as scattering each array.
-/
import Idealize.ShloMosaic.PureOps.Ideal.Laws
import Idealize.ShloMosaic.Lib.ValueIdx
import Idealize.ShloMosaic.Lib.Pipeline.Value

noncomputable section

open scoped BigOperators

namespace Cert.LibScatterRows

open Idealize.ShloMosaic Idealize.ShloMosaic.ValueIdx

section Coordinates

variable {N E C : Nat}

/-- The dimension numbers of a row scatter: the updates' second axis is the window, the operand's first axis is the
    scattered one, and each scatter index is one scalar. -/
abbrev rowDims (hwf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  { updateWindowDims := [1], insertedWindowDims := [0], scatterDimsToOperandDims := [0], indexVectorDim := 1, wf := hwf }

/-- On the row axis a row scatter has no window coordinate. -/
theorem rowDims_window0 (hwf) (j : (⟨2, ![E, C]⟩ : Shape).Idx) : (rowDims (N := N) hwf).window j 0 = 0 := by
  rfl

/-- On the column axis the window coordinate is the update's column. -/
theorem rowDims_window1 (hwf) (j : (⟨2, ![E, C]⟩ : Shape).Idx) : (rowDims (N := N) hwf).window j 1 = (j 1).val := by
  rfl

/-- On the column axis the window starts at zero. -/
theorem rowDims_start1 {w : Nat} (hwf) (j : (⟨2, ![E, C]⟩ : Shape).Idx) (idx : IVec ⟨2, ![E, 1]⟩ w) :
    (rowDims (N := N) hwf).start j idx 1 = 0 := by
  rfl

/-- On the row axis the window starts at the scatter index of the update's row, read as a signed integer. -/
theorem rowDims_start0 {w : Nat} (hwf) (j : (⟨2, ![E, C]⟩ : Shape).Idx) (idx : IVec ⟨2, ![E, 1]⟩ w) :
    (rowDims (N := N) hwf).start j idx 0 = (idx (ix2 (j 0) 0)).toInt := by
  have hs : (rowDims (N := N) hwf).siIdx j ⟨0, Nat.one_pos⟩ = ix2 (j 0) 0 := by
    funext b; apply Fin.ext
    match b with
    | ⟨0, _⟩ => rfl
    | ⟨1, _⟩ => rfl
  exact congrArg (fun k => (idx k).toInt) hs

/-- Where an update entry lands, from the four coordinate facts: entry `j` of the updates lands on entry (n, c) of the
    operand exactly when the scatter index of its row is `n` and its column is `c`. -/
theorem resultIdx_iff_of_coords {w : Nat} (d : ScatterDims ⟨2, ![N, C]⟩ ⟨2, ![E, 1]⟩ ⟨2, ![E, C]⟩)
    (j : (⟨2, ![E, C]⟩ : Shape).Idx) (idx : IVec ⟨2, ![E, 1]⟩ w)
    (s0 : d.start j idx 0 = (idx (ix2 (j 0) 0)).toInt) (s1 : d.start j idx 1 = 0)
    (w0 : d.window j 0 = 0) (w1 : d.window j 1 = (j 1).val) (n : Fin N) (c : Fin C) :
    d.resultIdx? j idx = some (ix2 n c) ↔ (idx (ix2 (j 0) 0)).toInt = (n.val : ℤ) ∧ (j 1).val = c.val := by
  have hjC := idx2_lt1 j
  have hn := n.isLt
  have hc := c.isLt
  unfold ScatterDims.resultIdx?
  split
  next h =>
    rw [Option.some.injEq]
    constructor
    · intro hf
      have e0 : (d.start j idx 0 + (d.window j 0 : ℕ)).toNat = n.val := congrArg Fin.val (congrFun hf 0)
      have e1 : (d.start j idx 1 + (d.window j 1 : ℕ)).toNat = c.val := congrArg Fin.val (congrFun hf 1)
      have h0 : 0 ≤ d.start j idx 0 + (d.window j 0 : ℕ) ∧ d.start j idx 0 + (d.window j 0 : ℕ) < (N : ℤ) := h 0
      rw [s0, w0] at e0 h0
      rw [s1, w1] at e1
      constructor <;> omega
    · rintro ⟨en, ec⟩
      funext a; apply Fin.ext
      match a with
      | ⟨0, _⟩ =>
        show (d.start j idx 0 + (d.window j 0 : ℕ)).toNat = n.val
        rw [s0, w0, en]; omega
      | ⟨1, _⟩ =>
        show (d.start j idx 1 + (d.window j 1 : ℕ)).toNat = c.val
        rw [s1, w1]; omega
  next h =>
    constructor
    · intro hf; exact absurd hf (by simp)
    · rintro ⟨en, ec⟩
      exfalso; apply h
      intro a
      match a with
      | ⟨0, _⟩ =>
        show 0 ≤ d.start j idx 0 + (d.window j 0 : ℕ) ∧ d.start j idx 0 + (d.window j 0 : ℕ) < (N : ℤ)
        rw [s0, w0, en]; omega
      | ⟨1, _⟩ =>
        show 0 ≤ d.start j idx 1 + (d.window j 1 : ℕ) ∧ d.start j idx 1 + (d.window j 1 : ℕ) < (C : ℤ)
        rw [s1, w1]; omega

end Coordinates

section RowScatter

variable {N E C : Nat}

/-- The row scatter at the concrete dimension numbers, read at entry (n, c): the operand's entry plus the sum, over
    the update rows whose scatter index is `n`, of the updates' entries in column `c`. -/
theorem scatterAdd_rowDims_apply {w : Nat} (hwf) (x : FVec Ideal ⟨2, ![N, C]⟩ .f32) (idx : IVec ⟨2, ![E, 1]⟩ w)
    (upd : FVec Ideal ⟨2, ![E, C]⟩ .f32) (n : Fin N) (c : Fin C) :
    Host.scatterAdd (rowDims (N := N) hwf) x idx upd (ix2 n c)
      = x (ix2 n c) + ∑ e : Fin E, if (idx (ix2 e 0)).toInt = (n.val : ℤ) then upd (ix2 e c) else 0 := by
  have key : ∀ (e : Fin E) (b : Fin C), (rowDims (N := N) hwf).resultIdx? (ix2 e b) idx = some (ix2 n c) ↔
      ((idx (ix2 e 0)).toInt = (n.val : ℤ) ∧ b = c) := by
    intro e b
    rw [resultIdx_iff_of_coords (rowDims (N := N) hwf) (ix2 e b) idx (rowDims_start0 hwf _ idx) (rowDims_start1 hwf _ idx)
      (rowDims_window0 hwf _) (rowDims_window1 hwf _) n c]
    exact and_congr Iff.rfl Fin.val_inj
  show x (ix2 n c) + ∑ j ∈ Finset.univ.filter (fun j => (rowDims (N := N) hwf).resultIdx? j idx = some (ix2 n c)), upd j = _
  refine congrArg (fun t => x (ix2 n c) + t) ?_
  rw [Finset.sum_filter, sum_idx2]
  refine Finset.sum_congr rfl fun e _ => ?_
  by_cases hn : (idx (ix2 e 0)).toInt = (n.val : ℤ)
  · rw [if_pos hn]
    rw [Finset.sum_eq_single c (fun b _ hb => if_neg (fun h => hb ((key e b).1 h).2))
      (fun h => absurd (Finset.mem_univ c) h)]
    exact if_pos ((key e c).2 ⟨hn, rfl⟩)
  · rw [if_neg hn]
    exact Finset.sum_eq_zero fun b _ => if_neg (fun h => hn ((key e b).1 h).1)

/-- The row scatter read at an entry, for any dimension numbers whose four lists are those of a row scatter: entry
    (n, c) of the result is the operand's entry plus the sum, over the update rows `e` whose scatter index (read as a
    signed integer) is `n`, of the updates' entry (e, c). An update row whose index is no row of the operand
    contributes to no entry. -/
theorem scatterAdd_rows_apply {N E C w : Nat} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : FVec Ideal ⟨2, ![N, C]⟩ .f32) (idx : IVec ⟨2, ![E, 1]⟩ w) (upd : FVec Ideal ⟨2, ![E, C]⟩ .f32)
    (n : Fin N) (c : Fin C) :
    Host.scatterAdd d x idx upd (ix2 n c)
      = x (ix2 n c) + ∑ e : Fin E, if (idx (ix2 e 0)).toInt = (n.val : ℤ) then upd (ix2 e c) else 0 := by
  cases d with
  | mk uw iw sd iv wf =>
    dsimp only at h1 h2 h3 h4
    subst h1 h2 h3 h4
    exact scatterAdd_rowDims_apply wf x idx upd n c

end RowScatter

section SideBySide

variable {N E C₁ C₂ Ct w : Nat}

/-- The dimension numbers `d` are those of a row scatter: the updates' second axis is the window, the operand's first
    axis is inserted and is the one the scatter indices address, and each scatter index is one scalar. -/
def IsRowScatter {N E C : Nat} (d : ScatterDims ⟨2, ![N, C]⟩ ⟨2, ![E, 1]⟩ ⟨2, ![E, C]⟩) : Prop :=
  d.updateWindowDims = [1] ∧ d.insertedWindowDims = [0] ∧ d.scatterDimsToOperandDims = [0] ∧ d.indexVectorDim = 1

/-- The row scatter read at an entry, with the four conditions on the dimension numbers bundled. -/
theorem scatterAdd_rows_apply' {C : Nat} {d : ScatterDims ⟨2, ![N, C]⟩ ⟨2, ![E, 1]⟩ ⟨2, ![E, C]⟩} (hd : IsRowScatter d)
    (x : FVec Ideal ⟨2, ![N, C]⟩ .f32) (idx : IVec ⟨2, ![E, 1]⟩ w) (upd : FVec Ideal ⟨2, ![E, C]⟩ .f32)
    (n : Fin N) (c : Fin C) :
    Host.scatterAdd d x idx upd (ix2 n c)
      = x (ix2 n c) + ∑ e : Fin E, if (idx (ix2 e 0)).toInt = (n.val : ℤ) then upd (ix2 e c) else 0 :=
  scatterAdd_rows_apply d hd.1 hd.2.1 hd.2.2.1 hd.2.2.2 x idx upd n c

/-- A scalar spread over a matrix is that scalar at every entry, whatever the matrix's extents. -/
theorem broadcast_scalar_apply {A B : Nat} (hb : (⟨0, ![]⟩ : Shape).BroadcastsInDim ⟨2, ![A, B]⟩ (![] : Fin 0 → Fin 2))
    (z : FVec Ideal ⟨0, ![]⟩ .f32) (j : (⟨2, ![A, B]⟩ : Shape).Idx) :
    broadcastInDim ⟨2, ![A, B]⟩ ![] hb z j = z (fun a => a.elim0) :=
  broadcastInDim_apply _ hb z j _ (fun a => a.elim0)

/-- Scattering the rows of two arrays set side by side, then keeping the FIRST array's columns, is scattering the
    first array's rows: a row scatter acts on each column by itself. The operand is one scalar at every entry. -/
theorem slice_left_scatterAdd_concat
    (dt : ScatterDims ⟨2, ![N, Ct]⟩ ⟨2, ![E, 1]⟩ ⟨2, ![E, Ct]⟩) (d₁ : ScatterDims ⟨2, ![N, C₁]⟩ ⟨2, ![E, 1]⟩ ⟨2, ![E, C₁]⟩)
    (ht : IsRowScatter dt) (h₁ : IsRowScatter d₁)
    (hbt : (⟨0, ![]⟩ : Shape).BroadcastsInDim ⟨2, ![N, Ct]⟩ (![] : Fin 0 → Fin 2))
    (hb₁ : (⟨0, ![]⟩ : Shape).BroadcastsInDim ⟨2, ![N, C₁]⟩ (![] : Fin 0 → Fin 2))
    (hcat : Shape.Concatenates [⟨2, ![E, C₁]⟩, ⟨2, ![E, C₂]⟩] ⟨2, ![E, Ct]⟩ 1)
    (hsl : (⟨2, ![N, Ct]⟩ : Shape).Slices ![0, 0] ⟨2, ![N, C₁]⟩)
    (z : FVec Ideal ⟨0, ![]⟩ .f32) (idx : IVec ⟨2, ![E, 1]⟩ w) (u : FVec Ideal ⟨2, ![E, C₁]⟩ .f32)
    (o : FVec Ideal ⟨2, ![E, C₂]⟩ .f32) :
    extractStridedSlice ⟨2, ![N, C₁]⟩ ![0, 0] (Host.scatterAdd dt (broadcastInDim ⟨2, ![N, Ct]⟩ ![] hbt z) idx
        (concatenate ⟨2, ![E, Ct]⟩ 1 [⟨⟨2, ![E, C₁]⟩, u⟩, ⟨⟨2, ![E, C₂]⟩, o⟩] hcat)) hsl
      = Host.scatterAdd d₁ (broadcastInDim ⟨2, ![N, C₁]⟩ ![] hb₁ z) idx u := by
  funext i
  obtain ⟨n, c, rfl⟩ : ∃ n c, i = ix2 n c := ⟨i 0, i 1, eq_ix2 i⟩
  -- the column, as a column of the wide array
  have hcl : c.val < Ct := by
    have h : 0 + C₁ ≤ Ct := hsl.2 1
    have := c.isLt
    omega
  rw [extractStridedSlice_apply ![0, 0] _ hsl (ix2 n c) (ix2 n ⟨c.val, hcl⟩)
    (fun a => by match a with | ⟨0, _⟩ => exact (Nat.zero_add _).symm | ⟨1, _⟩ => exact (Nat.zero_add _).symm)]
  rw [scatterAdd_rows_apply' ht, scatterAdd_rows_apply' h₁, broadcast_scalar_apply, broadcast_scalar_apply]
  refine congrArg (fun t => z (fun a => a.elim0) + t) (Finset.sum_congr rfl fun e _ => ?_)
  rw [concatenate_pair_apply_left 1 u o hcat (ix2 e ⟨c.val, hcl⟩) rfl (ix2 e c)
    (fun b => by match b with | ⟨0, _⟩ => rfl | ⟨1, _⟩ => rfl)]

/-- Scattering the rows of two arrays set side by side, then keeping the SECOND array's columns, is scattering the
    second array's rows. The operand is one scalar at every entry. -/
theorem slice_right_scatterAdd_concat
    (dt : ScatterDims ⟨2, ![N, Ct]⟩ ⟨2, ![E, 1]⟩ ⟨2, ![E, Ct]⟩) (d₂ : ScatterDims ⟨2, ![N, C₂]⟩ ⟨2, ![E, 1]⟩ ⟨2, ![E, C₂]⟩)
    (ht : IsRowScatter dt) (h₂ : IsRowScatter d₂)
    (hbt : (⟨0, ![]⟩ : Shape).BroadcastsInDim ⟨2, ![N, Ct]⟩ (![] : Fin 0 → Fin 2))
    (hb₂ : (⟨0, ![]⟩ : Shape).BroadcastsInDim ⟨2, ![N, C₂]⟩ (![] : Fin 0 → Fin 2))
    (hcat : Shape.Concatenates [⟨2, ![E, C₁]⟩, ⟨2, ![E, C₂]⟩] ⟨2, ![E, Ct]⟩ 1)
    (hsr : (⟨2, ![N, Ct]⟩ : Shape).Slices ![0, C₁] ⟨2, ![N, C₂]⟩)
    (z : FVec Ideal ⟨0, ![]⟩ .f32) (idx : IVec ⟨2, ![E, 1]⟩ w) (u : FVec Ideal ⟨2, ![E, C₁]⟩ .f32)
    (o : FVec Ideal ⟨2, ![E, C₂]⟩ .f32) :
    extractStridedSlice ⟨2, ![N, C₂]⟩ ![0, C₁] (Host.scatterAdd dt (broadcastInDim ⟨2, ![N, Ct]⟩ ![] hbt z) idx
        (concatenate ⟨2, ![E, Ct]⟩ 1 [⟨⟨2, ![E, C₁]⟩, u⟩, ⟨⟨2, ![E, C₂]⟩, o⟩] hcat)) hsr
      = Host.scatterAdd d₂ (broadcastInDim ⟨2, ![N, C₂]⟩ ![] hb₂ z) idx o := by
  funext i
  obtain ⟨n, c, rfl⟩ : ∃ n c, i = ix2 n c := ⟨i 0, i 1, eq_ix2 i⟩
  -- the column, as a column of the wide array: past the first array's columns
  have hcl : C₁ + c.val < Ct := by
    have h : C₁ + C₂ ≤ Ct := hsr.2 1
    have := c.isLt
    omega
  rw [extractStridedSlice_apply ![0, C₁] _ hsr (ix2 n c) (ix2 n ⟨C₁ + c.val, hcl⟩)
    (fun a => by match a with | ⟨0, _⟩ => exact (Nat.zero_add _).symm | ⟨1, _⟩ => rfl)]
  rw [scatterAdd_rows_apply' ht, scatterAdd_rows_apply' h₂, broadcast_scalar_apply, broadcast_scalar_apply]
  refine congrArg (fun t => z (fun a => a.elim0) + t) (Finset.sum_congr rfl fun e _ => ?_)
  rw [concatenate_pair_apply_right 1 u o hcat (ix2 e ⟨C₁ + c.val, hcl⟩) rfl rfl (ix2 e c)
    (fun b hb => by match b with | ⟨0, _⟩ => rfl | ⟨1, _⟩ => exact absurd rfl hb)
    (Nat.add_comm _ _)]

/-- The instance for 20000 nodes, 640000 edges and 128 message channels beside one column of ones: the first 128
    columns of the joint segment sum are the segment sum of the messages. -/
theorem slice_messages_scatterAdd
    (d129 : ScatterDims ⟨2, ![20000, 129]⟩ ⟨2, ![640000, 1]⟩ ⟨2, ![640000, 129]⟩)
    (d128 : ScatterDims ⟨2, ![20000, 128]⟩ ⟨2, ![640000, 1]⟩ ⟨2, ![640000, 128]⟩)
    (h129 : IsRowScatter d129) (h128 : IsRowScatter d128)
    (hb129 : (⟨0, ![]⟩ : Shape).BroadcastsInDim ⟨2, ![20000, 129]⟩ (![] : Fin 0 → Fin 2))
    (hb128 : (⟨0, ![]⟩ : Shape).BroadcastsInDim ⟨2, ![20000, 128]⟩ (![] : Fin 0 → Fin 2))
    (hcat : Shape.Concatenates [⟨2, ![640000, 128]⟩, ⟨2, ![640000, 1]⟩] ⟨2, ![640000, 129]⟩ 1)
    (hsl : (⟨2, ![20000, 129]⟩ : Shape).Slices ![0, 0] ⟨2, ![20000, 128]⟩)
    (z : FVec Ideal ⟨0, ![]⟩ .f32) (idx : IVec ⟨2, ![640000, 1]⟩ 32) (u : FVec Ideal ⟨2, ![640000, 128]⟩ .f32)
    (o : FVec Ideal ⟨2, ![640000, 1]⟩ .f32) :
    extractStridedSlice ⟨2, ![20000, 128]⟩ ![0, 0] (Host.scatterAdd d129 (broadcastInDim ⟨2, ![20000, 129]⟩ ![] hb129 z) idx
        (concatenate ⟨2, ![640000, 129]⟩ 1 [⟨⟨2, ![640000, 128]⟩, u⟩, ⟨⟨2, ![640000, 1]⟩, o⟩] hcat)) hsl
      = Host.scatterAdd d128 (broadcastInDim ⟨2, ![20000, 128]⟩ ![] hb128 z) idx u :=
  slice_left_scatterAdd_concat d129 d128 h129 h128 hb129 hb128 hcat hsl z idx u o

/-- The same instance's last column: it is the segment sum of the ones, the number of edges arriving at each node. -/
theorem slice_ones_scatterAdd
    (d129 : ScatterDims ⟨2, ![20000, 129]⟩ ⟨2, ![640000, 1]⟩ ⟨2, ![640000, 129]⟩)
    (d1 : ScatterDims ⟨2, ![20000, 1]⟩ ⟨2, ![640000, 1]⟩ ⟨2, ![640000, 1]⟩)
    (h129 : IsRowScatter d129) (h1 : IsRowScatter d1)
    (hb129 : (⟨0, ![]⟩ : Shape).BroadcastsInDim ⟨2, ![20000, 129]⟩ (![] : Fin 0 → Fin 2))
    (hb1 : (⟨0, ![]⟩ : Shape).BroadcastsInDim ⟨2, ![20000, 1]⟩ (![] : Fin 0 → Fin 2))
    (hcat : Shape.Concatenates [⟨2, ![640000, 128]⟩, ⟨2, ![640000, 1]⟩] ⟨2, ![640000, 129]⟩ 1)
    (hsr : (⟨2, ![20000, 129]⟩ : Shape).Slices ![0, 128] ⟨2, ![20000, 1]⟩)
    (z : FVec Ideal ⟨0, ![]⟩ .f32) (idx : IVec ⟨2, ![640000, 1]⟩ 32) (u : FVec Ideal ⟨2, ![640000, 128]⟩ .f32)
    (o : FVec Ideal ⟨2, ![640000, 1]⟩ .f32) :
    extractStridedSlice ⟨2, ![20000, 1]⟩ ![0, 128] (Host.scatterAdd d129 (broadcastInDim ⟨2, ![20000, 129]⟩ ![] hb129 z) idx
        (concatenate ⟨2, ![640000, 129]⟩ 1 [⟨⟨2, ![640000, 128]⟩, u⟩, ⟨⟨2, ![640000, 1]⟩, o⟩] hcat)) hsr
      = Host.scatterAdd d1 (broadcastInDim ⟨2, ![20000, 1]⟩ ![] hb1 z) idx o :=
  slice_right_scatterAdd_concat d129 d1 h129 h1 hb129 hb1 hcat hsr z idx u o

end SideBySide

end Cert.LibScatterRows

end
-- ==== Proof.LibScatterVec.lean ====
/-
  The host's accumulating scatter of SCALARS into a vector, read over the extended reals.

  The scatter indices are a column of entry numbers, one per update; update `e` is added to entry `idx e` of the
  operand (the index read as a signed integer; an entry number that is no entry of the operand drops the update).
  Entry `n` of the result is therefore entry `n` of the operand plus the sum of the updates whose index is `n`.
-/
import Idealize.ShloMosaic.PureOps.Ideal.Laws
import Idealize.ShloMosaic.Lib.ValueIdx

noncomputable section

open scoped BigOperators

namespace Cert.LibScatterVec

open Idealize.ShloMosaic Idealize.ShloMosaic.ValueIdx

section RankOne

/-- A rank-one index is its one coordinate … -/
def idxEquiv1 {n : Nat} : (⟨1, ![n]⟩ : Shape).Idx ≃ Fin n where
  toFun j := j 0
  invFun e := ix1 e
  left_inv j := (eq_ix1 j).symm
  right_inv _ := rfl

/-- … so a sum over the rank-one indices is the sum over the coordinate. -/
theorem sum_idx1 {M : Type*} [AddCommMonoid M] {n : Nat} (f : (⟨1, ![n]⟩ : Shape).Idx → M) :
    ∑ j, f j = ∑ e : Fin n, f (ix1 e) := by
  rw [← Equiv.sum_comp (idxEquiv1 (n := n)).symm f]
  rfl

end RankOne

section Coordinates

variable {N E : Nat}

/-- The dimension numbers of a scatter of scalars into a vector: the updates have no window axis, the operand's one
    axis is inserted and is the one the scatter indices address, and each scatter index is one scalar. -/
abbrev vecDims (hwf : ScatterDims.WF ⟨1, ![N]⟩ ⟨2, ![E, 1]⟩ ⟨1, ![E]⟩ [] [0] [0] 1) :
    ScatterDims ⟨1, ![N]⟩ ⟨2, ![E, 1]⟩ ⟨1, ![E]⟩ :=
  { updateWindowDims := [], insertedWindowDims := [0], scatterDimsToOperandDims := [0], indexVectorDim := 1, wf := hwf }

/-- The operand's one axis is inserted: an update has no window coordinate on it. -/
theorem vecDims_window (hwf) (j : (⟨1, ![E]⟩ : Shape).Idx) : (vecDims (N := N) hwf).window j 0 = 0 := by
  rfl

/-- The window of update `j` starts at the scatter index of `j`, read as a signed integer. -/
theorem vecDims_start {w : Nat} (hwf) (j : (⟨1, ![E]⟩ : Shape).Idx) (idx : IVec ⟨2, ![E, 1]⟩ w) :
    (vecDims (N := N) hwf).start j idx 0 = (idx (ix2 (j 0) 0)).toInt := by
  have hs : (vecDims (N := N) hwf).siIdx j ⟨0, Nat.one_pos⟩ = ix2 (j 0) 0 := by
    funext b; apply Fin.ext
    match b with
    | ⟨0, _⟩ => rfl
    | ⟨1, _⟩ => rfl
  exact congrArg (fun k => (idx k).toInt) hs

/-- Where an update lands, from the two coordinate facts: update `j` lands on entry `n` of the operand exactly when
    its scatter index is `n`. -/
theorem resultIdx_iff_of_coords {w : Nat} (d : ScatterDims ⟨1, ![N]⟩ ⟨2, ![E, 1]⟩ ⟨1, ![E]⟩)
    (j : (⟨1, ![E]⟩ : Shape).Idx) (idx : IVec ⟨2, ![E, 1]⟩ w)
    (hs : d.start j idx 0 = (idx (ix2 (j 0) 0)).toInt) (hw : d.window j 0 = 0) (n : Fin N) :
    d.resultIdx? j idx = some (ix1 n) ↔ (idx (ix2 (j 0) 0)).toInt = (n.val : ℤ) := by
  have hn := n.isLt
  unfold ScatterDims.resultIdx?
  split
  next h =>
    -- the update lands inside the operand: it lands on `n` exactly when its one coordinate is `n`
    rw [Option.some.injEq]
    constructor
    · intro hf
      have e0 : (d.start j idx 0 + (d.window j 0 : ℕ)).toNat = n.val := congrArg Fin.val (congrFun hf 0)
      have h0 : 0 ≤ d.start j idx 0 + (d.window j 0 : ℕ) ∧ d.start j idx 0 + (d.window j 0 : ℕ) < (N : ℤ) := h 0
      rw [hs, hw] at e0 h0
      omega
    · intro en
      funext a; apply Fin.ext
      match a with
      | ⟨0, _⟩ =>
        show (d.start j idx 0 + (d.window j 0 : ℕ)).toNat = n.val
        rw [hs, hw, en]; omega
  next h =>
    -- the update is dropped: its index is then no entry of the operand, so it is not `n`
    constructor
    · intro hf; exact absurd hf (by simp)
    · intro en
      exfalso; apply h
      intro a
      match a with
      | ⟨0, _⟩ =>
        show 0 ≤ d.start j idx 0 + (d.window j 0 : ℕ) ∧ d.start j idx 0 + (d.window j 0 : ℕ) < (N : ℤ)
        rw [hs, hw, en]; omega

end Coordinates

section VecScatter

variable {N E : Nat}

/-- The scatter of scalars at the concrete dimension numbers, read at entry `n`: the operand's entry plus the sum of
    the updates whose scatter index is `n`. -/
theorem scatterAdd_vecDims_apply {w : Nat} (hwf) (x : FVec Ideal ⟨1, ![N]⟩ .f32) (idx : IVec ⟨2, ![E, 1]⟩ w)
    (upd : FVec Ideal ⟨1, ![E]⟩ .f32) (n : Fin N) :
    Host.scatterAdd (vecDims (N := N) hwf) x idx upd (ix1 n)
      = x (ix1 n) + ∑ e : Fin E, if (idx (ix2 e 0)).toInt = (n.val : ℤ) then upd (ix1 e) else 0 := by
  have key : ∀ e : Fin E, (vecDims (N := N) hwf).resultIdx? (ix1 e) idx = some (ix1 n) ↔
      (idx (ix2 e 0)).toInt = (n.val : ℤ) := fun e =>
    resultIdx_iff_of_coords (vecDims (N := N) hwf) (ix1 e) idx (vecDims_start hwf _ idx) (vecDims_window hwf _) n
  show x (ix1 n) + ∑ j ∈ Finset.univ.filter (fun j => (vecDims (N := N) hwf).resultIdx? j idx = some (ix1 n)), upd j = _
  refine congrArg (fun t => x (ix1 n) + t) ?_
  rw [Finset.sum_filter, sum_idx1]
  exact Finset.sum_congr rfl fun e _ => if_congr (key e) rfl rfl

/-- The scatter of scalars read at an entry, for any dimension numbers whose four lists are those of such a scatter:
    entry `n` of the result is the operand's entry plus the sum of the updates `e` whose scatter index (read as a signed
    integer) is `n`. An update whose index is no entry of the operand contributes to no entry. -/
theorem scatterAdd_vec_apply {w : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : FVec Ideal ⟨1, ![N]⟩ .f32) (idx : IVec ⟨2, ![E, 1]⟩ w) (upd : FVec Ideal ⟨1, ![E]⟩ .f32) (n : Fin N) :
    Host.scatterAdd d x idx upd (ix1 n)
      = x (ix1 n) + ∑ e : Fin E, if (idx (ix2 e 0)).toInt = (n.val : ℤ) then upd (ix1 e) else 0 := by
  cases d with
  | mk uw iw sd iv wf =>
    dsimp only at h1 h2 h3 h4
    subst h1 h2 h3 h4
    exact scatterAdd_vecDims_apply wf x idx upd n

end VecScatter

end Cert.LibScatterVec

end
-- ==== Proof.RefValue.lean ====
/-
  The reference's result as the specification.

  The reference is read one operation at a time. The two scatters are the per-class sums of the support rows and the
  per-class member counts; their quotient, with the count clamped from below by one, is the prototypes. Both norms are
  the square roots of the sums of squares clamped from below, the dot product over the 256 columns divided by the
  product of the two norms is the similarity, and the last stage is the log-softmax of a row of 64 similarities: the
  row's maximum (a fold of the maximum from minus infinity, which a further maximum with minus infinity leaves as it
  is) is subtracted, and then the logarithm of the sum of the exponentials.
-/
import proofs.«421448_j35373350650479_2_alg».proof.Proof.RefRead
import proofs.«421448_j35373350650479_2_alg».proof.Proof.Spec
import proofs.«421448_j35373350650479_2_alg».proof.Proof.LibScatterRows
import proofs.«421448_j35373350650479_2_alg».proof.Proof.LibScatterVec
import Idealize.ShloMosaic.PureOps.IdealRules
import Idealize.ShloMosaic.PureOps.Reduce
import Mathlib.Data.Finset.Fold

noncomputable section

open scoped BigOperators

namespace Cert.RefValue

open Idealize.ShloMosaic Idealize.ShloMosaic.ValueIdx Cert.ReferenceIdeal Cert.ReferenceIdeal.ReadP

/-! ### The literals -/

/-- The single-precision word of one is the extended real one. -/
private theorem one_f32 : Ideal.ofBits .f32 0x3F800000#32 = 1 := IdealRules.sign_bit.ideal_onePat .f32

/-! ### The composed index functions, at coordinates -/

private theorem idx_v1 (e : Fin 262144) : idx_main_v1 (ix2 e (0 : Fin 1)) = ix1 e :=
  funext fun a => Fin.ext (by match a with | ⟨0, _⟩ => rfl)

private theorem idx_v5 (e : Fin 262144) : idx_main_v5 (ix2 e (0 : Fin 1)) = ix1 e :=
  funext fun a => Fin.ext (by match a with | ⟨0, _⟩ => rfl)

private theorem idx_v9_v10 (k : Fin 64) (d : Fin 256) : idx_main_v9 (idx_main_v10 (ix2 k d)) = ix1 k :=
  funext fun a => Fin.ext (by match a with | ⟨0, _⟩ => rfl)

private theorem idx_call1_v1 (k : Fin 64) (d : Fin 256) : idx_main_call1_v1 (ix1 k) d = ix2 k d :=
  funext fun a => Fin.ext (by match a with | ⟨0, _⟩ => rfl | ⟨1, _⟩ => rfl)

private theorem idx_call0_v1 (n : Fin 131072) (d : Fin 256) : idx_main_call0_v1 (ix1 n) d = ix2 n d :=
  funext fun a => Fin.ext (by match a with | ⟨0, _⟩ => rfl | ⟨1, _⟩ => rfl)

/-- Dropping the queries' middle axis of extent one: row `n`, column `d` is entry (n, 0, d). -/
private theorem idx_v12 (n : Fin 131072) (d : Fin 256) : idx_main_v12 (ix2 n d) = ix3 n (0 : Fin 1) d :=
  funext fun a => Fin.ext (by
    have hn := n.isLt
    have hd := d.isLt
    match a with
    | ⟨0, _⟩ => show (n.val * 256 + d.val) / 256 = n.val; omega
    | ⟨1, _⟩ => rfl
    | ⟨2, _⟩ => show (n.val * 256 + d.val) % 256 = d.val; omega)

private theorem lidx_v19 (n : Fin 131072) (c : Fin 64) (k : Fin 256) : lidx_main_v19 (ix2 n c) k = ix2 n k :=
  funext fun a => Fin.ext (by match a with | ⟨0, _⟩ => rfl | ⟨1, _⟩ => rfl)

private theorem ridx_v19 (n : Fin 131072) (c : Fin 64) (k : Fin 256) : ridx_main_v19 (ix2 n c) k = ix2 c k :=
  funext fun a => Fin.ext (by match a with | ⟨0, _⟩ => rfl | ⟨1, _⟩ => rfl)

private theorem idx_v20_v22 (n : Fin 131072) (c : Fin 64) : idx_main_v20 (idx_main_v22 (ix2 n c)) = ix1 n :=
  funext fun a => Fin.ext (by match a with | ⟨0, _⟩ => rfl)

private theorem idx_v21_v23 (n : Fin 131072) (c : Fin 64) : idx_main_v21 (idx_main_v23 (ix2 n c)) = ix1 c :=
  funext fun a => Fin.ext (by match a with | ⟨0, _⟩ => rfl)

private theorem idx_call2_v3_v4 (n : Fin 131072) (c : Fin 64) :
    idx_main_call2_v3 (idx_main_call2_v4 (ix2 n c)) = ix1 n :=
  funext fun a => Fin.ext (by match a with | ⟨0, _⟩ => rfl)

private theorem idx_call2_v7 (n : Fin 131072) (k : Fin 64) : idx_main_call2_v7 (ix1 n) k = ix2 n k :=
  funext fun a => Fin.ext (by match a with | ⟨0, _⟩ => rfl | ⟨1, _⟩ => rfl)

private theorem idx_call2_v8_v10 (n : Fin 131072) (c : Fin 64) :
    idx_main_call2_v8 (idx_main_call2_v10 (ix2 n c)) = ix1 n :=
  funext fun a => Fin.ext (by match a with | ⟨0, _⟩ => rfl)

/-! ### The prototypes -/

/-- The row scatter into zeros is the per-class sum of the support rows. -/
private theorem v2_at (x0 : Vec Ideal S262144x256 .f32) (x1 : Vec Ideal S262144 .i32) (k : Fin 64) (d : Fin 256) :
    val_main_v2 (F := Ideal) x0 x1 (ix2 k d)
      = Cert.Spec.classSum (fun s d => x0 (ix2 s d)) (fun s => x1 (ix1 s)) k d := by
  unfold val_main_v2
  refine (Cert.LibScatterRows.scatterAdd_rows_apply _ rfl rfl rfl rfl _ _ _ k d).trans ?_
  rw [val_main_v0_apply, val_main_cst_apply]
  simp only [val_main_v1_apply, idx_v1, Ideal.ofBits_def, Ideal.ofBits_zero_f32, zero_add]
  rfl

/-- The scatter of ones into zeros is the per-class member count. -/
private theorem v6_at (x1 : Vec Ideal S262144 .i32) (k : Fin 64) :
    val_main_v6 (F := Ideal) x1 (ix1 k) = Cert.Spec.classCount (fun s => x1 (ix1 s)) k := by
  unfold val_main_v6
  refine (Cert.LibScatterVec.scatterAdd_vec_apply _ rfl rfl rfl rfl _ _ _ k).trans ?_
  rw [val_main_v4_apply, val_main_cst_1_apply]
  simp only [val_main_v5_apply, idx_v5, val_main_v3_apply, val_main_cst_0_apply, Ideal.ofBits_def,
    Ideal.ofBits_zero_f32, zero_add, one_f32]
  rfl

/-- The quotient of the two, the count clamped from below by one, is the prototype. -/
private theorem v11_at (x0 : Vec Ideal S262144x256 .f32) (x1 : Vec Ideal S262144 .i32) (k : Fin 64) (d : Fin 256) :
    val_main_v11 (F := Ideal) x0 x1 (ix2 k d)
      = Cert.Spec.proto (fun s d => x0 (ix2 s d)) (fun s => x1 (ix1 s)) k d := by
  rw [val_main_v11_apply, v2_at, val_main_v10_apply, val_main_v9_apply, val_main_v8_apply, idx_v9_v10, v6_at,
    val_main_v7_apply, val_main_cst_2_apply]
  simp only [Ideal.hostDivf_def, Ideal.maximumf_def, Ideal.ofBits_def, one_f32]
  rfl

/-! ### The two clamped norms -/

/-- The prototypes' norms. -/
private theorem v18_at (x0 : Vec Ideal S262144x256 .f32) (x1 : Vec Ideal S262144 .i32) (k : Fin 64) :
    val_main_v18 (F := Ideal) x0 x1 (ix1 k)
      = Cert.Spec.cnorm (fun d => val_main_v11 (F := Ideal) x0 x1 (ix2 k d)) := by
  rw [val_main_v18_apply, val_main_v16_apply, val_main_call1_v1_apply, val_main_call1_cst_apply, val_main_v17_apply,
    val_main_cst_4_apply]
  simp only [val_main_call1_v0_apply, idx_call1_v1, Ideal.maximumf_def, Ideal.hostUnary_sqrt_def, Ideal.mulf_def,
    Ideal.ofBits_def, Ideal.ofBits_zero_f32, zero_add]
  rfl

/-- The queries with their middle axis dropped. -/
private theorem v12_at (x2 : Vec Ideal S131072x1x256 .f32) (n : Fin 131072) (d : Fin 256) :
    val_main_v12 (F := Ideal) x2 (ix2 n d) = x2 (ix3 n (0 : Fin 1) d) := by
  rw [val_main_v12_apply, idx_v12]

/-- The queries' norms. -/
private theorem v15_at (x2 : Vec Ideal S131072x1x256 .f32) (n : Fin 131072) :
    val_main_v15 (F := Ideal) x2 (ix1 n) = Cert.Spec.cnorm (fun d => x2 (ix3 n (0 : Fin 1) d)) := by
  rw [val_main_v15_apply, val_main_v13_apply, val_main_call0_v1_apply, val_main_call0_cst_apply, val_main_v14_apply,
    val_main_cst_3_apply]
  simp only [val_main_call0_v0_apply, idx_call0_v1, v12_at, Ideal.maximumf_def, Ideal.hostUnary_sqrt_def,
    Ideal.mulf_def, Ideal.ofBits_def, Ideal.ofBits_zero_f32, zero_add]
  rfl

/-! ### The similarities -/

/-- The dot product over the columns, divided by the product of the two norms. -/
private theorem v25_at (x0 : Vec Ideal S262144x256 .f32) (x1 : Vec Ideal S262144 .i32)
    (x2 : Vec Ideal S131072x1x256 .f32) (n : Fin 131072) (c : Fin 64) :
    val_main_v25 (F := Ideal) x0 x1 x2 (ix2 n c)
      = Cert.Spec.sims (fun d => x2 (ix3 n (0 : Fin 1) d))
          (Cert.Spec.proto (fun s d => x0 (ix2 s d)) (fun s => x1 (ix1 s)))
          (fun c => Cert.Spec.cnorm (Cert.Spec.proto (fun s d => x0 (ix2 s d)) (fun s => x1 (ix1 s)) c)) c := by
  rw [val_main_v25_apply, val_main_v19_apply, val_main_v24_apply, val_main_v22_apply, val_main_v20_apply, idx_v20_v22,
    v15_at, val_main_v23_apply, val_main_v21_apply, idx_v21_v23, v18_at]
  simp only [lidx_v19, ridx_v19, v12_at, v11_at, Ideal.hostDivf_def, Ideal.mulf_def]
  rfl

/-! ### The log-softmax of a row of scores -/

/-- The maximum-reduce over the 64 scores of row `n` is the fold of the maximum from minus infinity. -/
private theorem call2_v0_at (x0 : Vec Ideal S262144x256 .f32) (x1 : Vec Ideal S262144 .i32)
    (x2 : Vec Ideal S131072x1x256 .f32) (n : Fin 131072) :
    val_main_call2_v0 (F := Ideal) x0 x1 x2 (ix1 n)
      = Cert.Spec.rowMax (fun c => val_main_v25 (F := Ideal) x0 x1 x2 (ix2 n c)) := by
  unfold val_main_call2_v0
  generalize val_main_v25 (F := Ideal) x0 x1 x2 = y
  refine (Host.reduce_eq_fold_single _ y _ _ (by decide) _ (ix1 n)).trans ?_
  unfold Cert.Spec.rowMax
  exact Finset.fold_congr fun k _ =>
    congrArg y (funext fun a => Fin.ext (by match a with | ⟨0, _⟩ => rfl | ⟨1, _⟩ => rfl))

/-- A further maximum with minus infinity changes nothing: the fold started there. -/
private theorem call2_v2_at (x0 : Vec Ideal S262144x256 .f32) (x1 : Vec Ideal S262144 .i32)
    (x2 : Vec Ideal S131072x1x256 .f32) (n : Fin 131072) :
    val_main_call2_v2 (F := Ideal) x0 x1 x2 (ix1 n)
      = Cert.Spec.rowMax (fun c => val_main_v25 (F := Ideal) x0 x1 x2 (ix2 n c)) := by
  rw [val_main_call2_v2_apply, call2_v0_at, val_main_call2_v1_apply, val_main_call2_cst_0_apply]
  simp only [Ideal.maximumf_def, Ideal.ofBits_def]
  unfold Cert.Spec.rowMax
  exact max_eq_right ((Finset.le_fold_max _).2 (Or.inl le_rfl))

/-- The scores less their row's maximum. -/
private theorem call2_v5_at (x0 : Vec Ideal S262144x256 .f32) (x1 : Vec Ideal S262144 .i32)
    (x2 : Vec Ideal S131072x1x256 .f32) (n : Fin 131072) (c : Fin 64) :
    val_main_call2_v5 (F := Ideal) x0 x1 x2 (ix2 n c)
      = Cert.Spec.shifted (fun c => val_main_v25 (F := Ideal) x0 x1 x2 (ix2 n c)) c := by
  rw [val_main_call2_v5_apply, val_main_call2_v4_apply, val_main_call2_v3_apply, idx_call2_v3_v4, call2_v2_at]
  simp only [Ideal.subf_def]
  rfl

/-- The last stage: the shifted score less the logarithm of the sum of the exponentials of the shifted scores. -/
private theorem v26_at (x0 : Vec Ideal S262144x256 .f32) (x1 : Vec Ideal S262144 .i32)
    (x2 : Vec Ideal S131072x1x256 .f32) (n : Fin 131072) (c : Fin 64) :
    val_main_v26 (F := Ideal) x0 x1 x2 (ix2 n c)
      = Cert.Spec.logSoftmax (fun c => val_main_v25 (F := Ideal) x0 x1 x2 (ix2 n c)) c := by
  rw [val_main_v26_apply, call2_v5_at, val_main_call2_v10_apply, val_main_call2_v9_apply, val_main_call2_v8_apply,
    idx_call2_v8_v10, val_main_call2_v7_apply, val_main_call2_cst_1_apply]
  simp only [val_main_call2_v6_apply, idx_call2_v7, call2_v5_at, Ideal.subf_def, Ideal.hostUnary_log_def,
    Ideal.hostUnary_exp_def, Ideal.ofBits_def, Ideal.ofBits_zero_f32, zero_add]
  rfl

/-! ### The result -/

/-- The reference's result, as a function of its three argument arrays, is the specification's result: entry (n, c)
    is `Cert.Spec.result` of the support set, the labels and the query rows (the queries' middle axis has extent one). -/
theorem ref_eq (x0 : Vec Ideal S262144x256 .f32) (x1 : Vec Ideal S262144 .i32) (x2 : Vec Ideal S131072x1x256 .f32) :
    Cert.ReferenceIdeal.ReadP.val_main_v26 (F := Ideal) x0 x1 x2
      = fun a => Cert.Spec.result (fun s d => x0 (ix2 s d)) (fun s => x1 (ix1 s)) (fun n d => x2 (ix3 n (0 : Fin 1) d)) (a 0) (a 1) := by
  funext a
  obtain ⟨n, c, rfl⟩ : ∃ (n : Fin 131072) (c : Fin 64), a = ix2 n c := ⟨a 0, a 1, eq_ix2 a⟩
  rw [v26_at]
  have hrow : (fun c => val_main_v25 (F := Ideal) x0 x1 x2 (ix2 n c))
      = Cert.Spec.sims (fun d => x2 (ix3 n (0 : Fin 1) d))
          (Cert.Spec.proto (fun s d => x0 (ix2 s d)) (fun s => x1 (ix1 s)))
          (fun c => Cert.Spec.cnorm (Cert.Spec.proto (fun s d => x0 (ix2 s d)) (fun s => x1 (ix1 s)) c)) :=
    funext fun c => v25_at x0 x1 x2 n c
  rw [hrow]
  rfl

end Cert.RefValue

end
-- ==== Proof.lean ====
/-
  The kernel and its reference compute one function over the extended reals.

  Both take a support set of 262144 rows of 256 features with an integer label per row, and 131072 query rows. Both
  form, for each of 64 classes, the sum of the support rows carrying that label divided by the larger of the number of
  such rows and one (a label that names no class contributes nowhere), score every query row against every class
  prototype by the cosine similarity with both norms clamped from below, and return the log-softmax of each row of
  scores.

  The reference forms the class sums and counts by two accumulating scatters. The kernel forms them in a first launch
  that walks the support set in 32 tiles, 16 per core, multiplying a one-hot matrix of the tile's labels into the
  tile and adding into a block that stays resident over a core's tiles; the host adds the two cores' partial results.
  Over the extended reals addition is commutative and associative, a product with one is the other factor and a product
  with zero is zero, so both are the same sums whatever the grouping. Everything after the prototypes is the same
  chain of operations on both sides, the kernel's second launch doing a tile of 8192 query rows at a time; changes of
  float format are the identity. No finiteness of the inputs is used.

  The kernel's frames are the generated ones; its result is read off the launch called again with the result buffer
  named (KRun), the arrays the two launches leave (KProto, KSimArr over KSim), and the host operations between them
  (Mid, Between). The reference's run and its stages read at an index are RefRun and RefRead; RefValue reads its result
  as the specification (Spec).
-/
import proofs.«421448_j35373350650479_2_alg».proof.Defs
import proofs.«421448_j35373350650479_2_alg».proof.Proof.Gen.Kernel
import proofs.«421448_j35373350650479_2_alg».proof.Proof.Gen.Kernel.Skeleton
import proofs.«421448_j35373350650479_2_alg».proof.Proof.Gen.Kernel.Launch
import proofs.«421448_j35373350650479_2_alg».proof.Proof.Gen.Kernel.Points
import proofs.«421448_j35373350650479_2_alg».proof.Proof.Gen.Kernel.Frame
import proofs.«421448_j35373350650479_2_alg».proof.Proof.Gen.KernelIdeal
import proofs.«421448_j35373350650479_2_alg».proof.Proof.Gen.KernelIdeal.Skeleton
import proofs.«421448_j35373350650479_2_alg».proof.Proof.Gen.KernelIdeal.Launch
import proofs.«421448_j35373350650479_2_alg».proof.Proof.Gen.KernelIdeal.Points
import proofs.«421448_j35373350650479_2_alg».proof.Proof.Gen.KernelIdeal.Frame
import proofs.«421448_j35373350650479_2_alg».proof.Proof.Gen.ReferenceIdeal
import proofs.«421448_j35373350650479_2_alg».proof.Proof.Gen.Pre_finite_inputs
import proofs.«421448_j35373350650479_2_alg».proof.Proof.KRun
import proofs.«421448_j35373350650479_2_alg».proof.Proof.Between
import proofs.«421448_j35373350650479_2_alg».proof.Proof.RefRun
import proofs.«421448_j35373350650479_2_alg».proof.Proof.RefRead
import proofs.«421448_j35373350650479_2_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel runs and leaves its arguments as launched. -/
theorem frame_k : Cert.frame_Kernel (hKernel := Cert.Kernel.Gen.facts) (hPre_finite_inputs := Cert.Pre_finite_inputs.Gen.facts) :=
  fun m ρ _ => Cert.Kernel.Gen.frame m ρ

/-- The idealized kernel runs and leaves its arguments as launched. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments as launched: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.ValueP.run (F := Ideal) m ρ)

/-- From memories that agree on the three arguments both programs end with the specification's result of those
    arguments in their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => fun a => Cert.Spec.result
      (fun s d => m ((c.tc : Thread Cert.KernelIdeal.nD Cert.KernelIdeal.τ).loc Cert.KernelIdeal.main_arg0) (ix2 s d))
      (fun s => m ((c.tc : Thread Cert.KernelIdeal.nD Cert.KernelIdeal.τ).loc Cert.KernelIdeal.main_arg1) (ix1 s))
      (fun n d => m ((c.tc : Thread Cert.KernelIdeal.nD Cert.KernelIdeal.τ).loc Cert.KernelIdeal.main_arg2) (ix3 n (0 : Fin 1) d))
      (a 0) (a 1), ?_, ?_⟩
  · exact (θ_run Cert.KernelIdeal.defs _ _).mono
      (fun _ h c => ⟨(h c).1.trans (Cert.Between.kernel_value m ρ c), (h c).2⟩)
      (Cert.KernelIdeal.GenP.run_value (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v26_eq, Cert.RefValue.ref_eq, (hagree c).1, (hagree c).2.1, (hagree c).2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
